-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S16x1x1 : Shape := ⟨3, ![16, 1, 1]⟩
abbrev S1x1x128x1024 : Shape := ⟨4, ![1, 1, 128, 1024]⟩
abbrev S1x1x1 : Shape := ⟨3, ![1, 1, 1]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩
abbrev S128x128 : Shape := ⟨2, ![128, 128]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1x1, .f32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  slices_S128x1024_o0_0_S128x128 : S128x1024.Slices ![0, 0] S128x128
  reduces_S128x128_S128 : S128x128.Reduces [1] S128
  slices_S128x1024_o0_128_S128x128 : S128x1024.Slices ![0, 128] S128x128
  slices_S128x1024_o0_256_S128x128 : S128x1024.Slices ![0, 256] S128x128
  slices_S128x1024_o0_384_S128x128 : S128x1024.Slices ![0, 384] S128x128
  slices_S128x1024_o0_512_S128x128 : S128x1024.Slices ![0, 512] S128x128
  slices_S128x1024_o0_640_S128x128 : S128x1024.Slices ![0, 640] S128x128
  slices_S128x1024_o0_768_S128x128 : S128x1024.Slices ![0, 768] S128x128
  slices_S128x1024_o0_896_S128x128 : S128x1024.Slices ![0, 896] S128x128
  shapeCasts_S1x1x1_S1x1x1 : S1x1x1.ShapeCasts S1x1x1
  shapeCasts_S1x1_S1x1x1 : S1x1.ShapeCasts S1x1x1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x1024.size a ≤ S16x1x1024x1024.size a
  hwx0_0 : ∀ i : grid0.Coords, EltTy.bits .f32 = 32 ∨ (Rect.block (s := S16x1x1024x1024) S1x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S16x1x1024x1024.size a
  hwx0_1 : ∀ i : grid0.Coords, EltTy.bits .f32 = 32 ∨ (Rect.block (s := S16x1x1024x1024) S1x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16x1024x1024 : Shape := ⟨3, ![16, 1024, 1024]⟩
abbrev S16x8x128x8x128 : Shape := ⟨5, ![16, 8, 128, 8, 128]⟩
abbrev S16x8x8x128x128 : Shape := ⟨5, ![16, 8, 8, 128, 128]⟩
abbrev S16x64x16384 : Shape := ⟨3, ![16, 64, 16384]⟩
abbrev S16x64 : Shape := ⟨2, ![16, 64]⟩
abbrev S16 : Shape := ⟨1, ![16]⟩

abbrev nBuf : Space → Nat
  | .hbm => 72
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S_, .f32⟩
  | .hbm, ⟨3, _⟩ => ⟨S16x1x1024x1024, .f32⟩
  | .hbm, ⟨4, _⟩ => ⟨S16x1x1024x1024, .f32⟩
  | .hbm, ⟨5, _⟩ => ⟨S16x1x1024x1024, .f32⟩
  | .hbm, ⟨6, _⟩ => ⟨S16x1x1024x1024, .f32⟩
  | .hbm, ⟨7, _⟩ => ⟨S16x1x1024x1024, .f32⟩
  | .hbm, ⟨8, _⟩ => ⟨S16x1x1024x1024, .f32⟩
  | .hbm, ⟨9, _⟩ => ⟨S16x1x1024x1024, .f32⟩
  | .hbm, ⟨10, _⟩ => ⟨S16x1x1024x1024, .f32⟩
  | .hbm, ⟨11, _⟩ => ⟨S16x1x1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x1x1024x1024, .f32⟩
  | .hbm, ⟨18, _⟩ => ⟨S16x1x1024x1024, .f32⟩
  | .hbm, ⟨19, _⟩ => ⟨S_, .f32⟩
  | .hbm, ⟨20, _⟩ => ⟨S16x1x1024x1024, .f32⟩
  | .hbm, ⟨21, _⟩ => ⟨S16x1x1024x1024, .f32⟩
  | .hbm, ⟨22, _⟩ => ⟨S16x1x1024x1024, .f32⟩
  | .hbm, ⟨23, _⟩ => ⟨S16x1x1024x1024, .f32⟩
  | .hbm, ⟨24, _⟩ => ⟨S_, .f32⟩
  | .hbm, ⟨25, _⟩ => ⟨S16x1x1024x1024, .f32⟩
  | .hbm, ⟨26, _⟩ => ⟨S16x1x1024x1024, .f32⟩
  | .hbm, ⟨27, _⟩ => ⟨S_, .f32⟩
  | .hbm, ⟨28, _⟩ => ⟨S16x1x1024x1024, .f32⟩
  | .hbm, ⟨29, _⟩ => ⟨S16x1x1024x1024, .f32⟩
  | .hbm, ⟨30, _⟩ => ⟨S16x1024x1024, .f32⟩
  | .hbm, ⟨31, _⟩ => ⟨S16x1024x1024, .f32⟩
  | .hbm, ⟨32, _⟩ => ⟨S16x8x128x8x128, .f32⟩
  | .hbm, ⟨33, _⟩ => ⟨S16x8x8x128x128, .f32⟩
  | .hbm, ⟨34, _⟩ => ⟨S16x64x16384, .f32⟩
  | .hbm, ⟨35, _⟩ => ⟨S16x8x128x8x128, .f32⟩
  | .hbm, ⟨36, _⟩ => ⟨S16x8x8x128x128, .f32⟩
  | .hbm, ⟨37, _⟩ => ⟨S16x64x16384, .f32⟩
  | .hbm, ⟨38, _⟩ => ⟨S_, .f32⟩
  | .hbm, ⟨39, _⟩ => ⟨S16x64, .f32⟩
  | .hbm, ⟨40, _⟩ => ⟨S_, .f32⟩
  | .hbm, ⟨41, _⟩ => ⟨S16x64, .f32⟩
  | .hbm, ⟨42, _⟩ => ⟨S_, .f32⟩
  | .hbm, ⟨43, _⟩ => ⟨S16x64, .f32⟩
  | .hbm, ⟨44, _⟩ => ⟨S16x64, .i1⟩
  | .hbm, ⟨45, _⟩ => ⟨S_, .f32⟩
  | .hbm, ⟨46, _⟩ => ⟨S16x64, .f32⟩
  | .hbm, ⟨47, _⟩ => ⟨S16x64, .i1⟩
  | .hbm, ⟨48, _⟩ => ⟨S16x64, .i1⟩
  | .hbm, ⟨49, _⟩ => ⟨S_, .f32⟩
  | .hbm, ⟨50, _⟩ => ⟨S16x64, .f32⟩
  | .hbm, ⟨51, _⟩ => ⟨S_, .f32⟩
  | .hbm, ⟨52, _⟩ => ⟨S16x64, .f32⟩
  | .hbm, ⟨53, _⟩ => ⟨S_, .f32⟩
  | .hbm, ⟨54, _⟩ => ⟨S16x64, .f32⟩
  | .hbm, ⟨55, _⟩ => ⟨S16x64, .f32⟩
  | .hbm, ⟨56, _⟩ => ⟨S16x64, .f32⟩
  | .hbm, ⟨57, _⟩ => ⟨S16x64, .f32⟩
  | .hbm, ⟨58, _⟩ => ⟨S16x64, .f32⟩
  | .hbm, ⟨59, _⟩ => ⟨S_, .f32⟩
  | .hbm, ⟨60, _⟩ => ⟨S_, .f32⟩
  | .hbm, ⟨61, _⟩ => ⟨S16x64, .f32⟩
  | .hbm, ⟨62, _⟩ => ⟨S16x64, .f32⟩
  | .hbm, ⟨63, _⟩ => ⟨S_, .f32⟩
  | .hbm, ⟨64, _⟩ => ⟨S16, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_cst_17 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  shapeCasts_S16x1x1024x1024_S16x1024x1024 : S16x1x1024x1024.ShapeCasts S16x1024x1024
  shapeCasts_S16x1024x1024_S16x8x128x8x128 : S16x1024x1024.ShapeCasts S16x8x128x8x128
  transposes_S16x8x128x8x128_S16x8x8x128x128_0_1_3_2_4 : S16x8x128x8x128.Transposes [0, 1, 3, 2, 4] S16x8x8x128x128
  shapeCasts_S16x8x8x128x128_S16x64x16384 : S16x8x8x128x128.ShapeCasts S16x64x16384
  reducesTo_S16x64x16384_S16x64_d2 : S16x64x16384.ReducesTo [2] S16x64
  bcast_S_S16x64 : S_.BroadcastsInDim S16x64 (![] : Fin 0 → Fin S16x64.rank)
  reducesTo_S16x64_S16_d1 : S16x64.ReducesTo [1] S16
  reducesTo_S16_S_d0 : S16.ReducesTo [0] S_

variable [Facts₀]

class Facts : Prop extends Facts₀ where

variable [Facts]
-- ==== Proof.Spec.lean ====
/-
  The function both programs compute, stated once over the two input images (labels L, logits P, both 16 x 1 x 1024 x 1024
  arrays of extended reals), with no program in sight.

  * The first term is the mean, over all 2^24 pixels, of the stable binary cross-entropy
    max(p, 0) - p * l + log(1 + exp(-|p|)).
  * The second term cuts each image into an 8 x 8 grid of 128 x 128 tiles. On a tile whose flipped label map 1 - l has
    values on both sides of 1/2, the flipped likelihood sigmoid(1 - p) is penalised at its extremes:
    (max - 1)^2 + min^2; other tiles contribute 0. The per-image sums are averaged over the 16 images.
  The sums are written in the nested order image, row band, row, column (resp. image, row band, column band), which is
  the order the tiled computation meets them in; a flat sum over all indices is the same number because addition of
  extended reals is commutative and associative.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of each input image stack. -/
abbrev SIn : Shape := ⟨4, ![16, 1, 1024, 1024]⟩

/-- The f32 words the programs spell, read as extended reals and never evaluated: one half, one, the pixel count 2^24,
    the image count 16. -/
abbrev halfE : EReal := Ideal.ofBits .f32 0x3F000000#32
abbrev oneE : EReal := Ideal.ofBits .f32 0x3F800000#32
abbrev nPixE : EReal := Ideal.ofBits .f32 0x4B800000#32
abbrev nImgE : EReal := Ideal.ofBits .f32 0x41800000#32

/-- The word of negative infinity is the bottom element, that of positive infinity the top. -/
theorem negInf_eq : Ideal.ofBits .f32 0xFF800000#32 = (⊥ : EReal) := by
  simp [Ideal.ofBits, Ideal.ieee]
theorem posInf_eq : Ideal.ofBits .f32 0x7F800000#32 = (⊤ : EReal) := by
  simp [Ideal.ofBits, Ideal.ieee]

/-- Row `128 h + r` of an image: row `r` of row band `h`. -/
def rowOf (h : Fin 8) (r : Fin 128) : Fin 1024 := ⟨128 * h.val + r.val, by omega⟩
/-- Column `128 w + c`: column `c` of column band `w`. -/
def colOf (w : Fin 8) (c : Fin 128) : Fin 1024 := ⟨128 * w.val + c.val, by omega⟩
/-- Tile `8 h + w` of an image, in row-major order of the 8 x 8 tile grid. -/
def tileOf (h w : Fin 8) : Fin 64 := ⟨8 * h.val + w.val, by omega⟩
/-- Cell `128 r + c` of a flattened 128 x 128 tile. -/
def cellOf (r c : Fin 128) : Fin 16384 := ⟨128 * r.val + c.val, by omega⟩

/-- The stable cross-entropy of one pixel: label `l`, logit `p`. -/
def bceE (l p : EReal) : EReal := (max p 0 - p * l) + Ideal.log1p (Ideal.exp (-(max p (-p))))

/-- The flipped likelihood and the flipped label of one pixel. -/
def lhE (p : EReal) : EReal := Ideal.logistic (oneE - p)
def gtE (l : EReal) : EReal := oneE - l

/-- The maximum and the minimum over a 128 x 128 tile: rows outside, columns inside. -/
def tileMax (f : Fin 128 → Fin 128 → EReal) : EReal :=
  (Finset.univ : Finset (Fin 128)).fold max ⊥ fun r => (Finset.univ : Finset (Fin 128)).fold max ⊥ fun c => f r c
def tileMin (f : Fin 128 → Fin 128 → EReal) : EReal :=
  (Finset.univ : Finset (Fin 128)).fold min ⊤ fun r => (Finset.univ : Finset (Fin 128)).fold min ⊤ fun c => f r c

/-- A tile's penalty from its four extremes: counted only when the flipped labels straddle one half. -/
def lossE (pmax pmin gmax gmin : EReal) : EReal :=
  Scalar.select (IntOp.andi (Ideal.cmp .ogt gmax halfE) (Ideal.cmp .olt gmin halfE))
    ((pmax - oneE) * (pmax - oneE) + pmin * pmin) 0

/-- The penalty of a tile given as two functions of its cell coordinates: likelihood `lh`, labels `gt`. -/
def tileLoss (lh gt : Fin 128 → Fin 128 → EReal) : EReal :=
  lossE (tileMax lh) (tileMin lh) (tileMax gt) (tileMin gt)

variable (L P : SIn.Idx → EReal)

/-- The cross-entropy summed over row band `h` of image `b`. -/
def blockBce (b : Fin 16) (h : Fin 8) : EReal :=
  ∑ r : Fin 128, ∑ c : Fin 1024, bceE (L (ix4 b (0 : Fin 1) (rowOf h r) c)) (P (ix4 b (0 : Fin 1) (rowOf h r) c))

/-- The penalty of tile `(h, w)` of image `b`. -/
def patchLoss (b : Fin 16) (h w : Fin 8) : EReal :=
  tileLoss (fun r c => lhE (P (ix4 b (0 : Fin 1) (rowOf h r) (colOf w c))))
    (fun r c => gtE (L (ix4 b (0 : Fin 1) (rowOf h r) (colOf w c))))

/-- The penalties summed over the eight tiles of row band `h` of image `b`. -/
def blockTopo (b : Fin 16) (h : Fin 8) : EReal := ∑ w : Fin 8, patchLoss L P b h w

/-- The whole result: mean cross-entropy plus one times the mean per-image penalty. -/
def total : EReal :=
  Ideal.div (∑ b : Fin 16, ∑ h : Fin 8, blockBce L P b h) nPixE
    + oneE * Ideal.div (∑ b : Fin 16, ∑ h : Fin 8, blockTopo L P b h) nImgE

end Cert.Spec

end
-- ==== Proof.KernelValue.lean ====
/-
  What one call of the kernel body leaves in its two accumulators, as values.

  The body adds to the first accumulator the cross-entropy summed over the 128 x 1024 block it was handed, and to the
  second the penalties of that block's eight 128 x 128 tiles; at the first row band of an image it first stores zero and
  reads that zero back. Here the contents the run found are restated as two functions of the input blocks and the
  accumulator's previous contents (`bceStep`, `topoStep`, at any float instance), and two further modules read those functions
  at the ideal instance as the spec's sums, maxima and minima over the block.
-/
import proofs.«173670_j26302379721190_1_alg».proof.Proof.Gen.KernelIdeal.Frame
import proofs.«173670_j26302379721190_1_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first accumulator after the body: its previous contents plus the block's cross-entropy sum. -/
def bceStep (x0 x1 : Vec F S1x1x128x1024 .f32) (acc : Vec F S1x1x1 .f32) : Vec F S1x1x1 .f32 :=
  k0_pay40 (k0_pay5 x0 x1) acc

/-- The second accumulator after the body: its previous contents plus the eight tile penalties, added left to right
    onto zero. -/
def topoStep (x0 x1 : Vec F S1x1x128x1024 .f32) (acc : Vec F S1x1x1 .f32) : Vec F S1x1x1 .f32 :=
  k0_pay41
    (k0_pay35 (k0_pay6 x0) (k0_pay7 x1)
      (k0_pay30
        (k0_pay24
          (k0_pay20 (k0_pay6 x0) (k0_pay7 x1)
            (k0_pay13 k0_pay8 (k0_pay10 x0) (k0_pay11 x1) (k0_pay12 x1))
            (k0_pay16 (k0_pay7 x1)) (k0_pay17 (k0_pay7 x1)) (k0_pay18 (k0_pay6 x0)) (k0_pay19 (k0_pay6 x0))
            (Scalar.ofBits .f32 0x3F000000#32))
          (k0_pay21 (k0_pay7 x1)) (k0_pay22 (k0_pay6 x0)) (k0_pay23 (k0_pay7 x1)))
        (k0_pay26 (k0_pay6 x0)) (k0_pay27 (k0_pay7 x1)) (k0_pay28 (k0_pay7 x1)) (k0_pay29 (k0_pay6 x0)))
      (k0_pay32 (k0_pay6 x0)) (k0_pay33 (k0_pay7 x1)) (k0_pay34 (k0_pay7 x1)))
    (k0_pay37 (k0_pay6 x0)) (k0_pay38 (k0_pay7 x1)) (k0_pay39 (k0_pay7 x1))
    acc

/-! ## The found pieces, as these two functions -/

section pieces
variable (c : Dev nD) (i : grid0.Coords) (a2 : Memref sig .tc .vmem S1x1x128x1024 .f32) (h2 : a2.IsWhole) (a3 : Memref sig .tc .vmem S1x1x128x1024 .f32) (h3 : a3.IsWhole) (a4 : Memref sig .tc .vmem S1x1x1 .f32) (h4 : a4.IsWhole) (a5 : Memref sig .tc .vmem S1x1x1 .f32) (h5 : a5.IsWhole)

/-- Away from the first row band the body leaves each accumulator at its step over what the point before left. -/
theorem out_B2 (hc : ¬cond0_0 i) (x0 x1 : Vec F S1x1x128x1024 .f32) (xo2 xo3 : Vec F S1x1x1 .f32) :
    out0_B_2 c i a2 h2 a3 h3 a4 h4 a5 h5 hc x0 x1 xo2 xo3 = bceStep x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x128x1024) hz4, View.ld_unit_zero (S := S1x1x1) hz3]
  rfl

theorem out_B3 (hc : ¬cond0_0 i) (x0 x1 : Vec F S1x1x128x1024 .f32) (xo2 xo3 : Vec F S1x1x1 .f32) :
    out0_B_3 c i a2 h2 a3 h3 a4 h4 a5 h5 hc x0 x1 xo2 xo3 = topoStep x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x128x1024) hz4, View.ld_unit_zero (S := S1x1x1) hz3]
  rfl

/-- At the first row band the accumulator's previous contents are the zero the body has just stored. -/
theorem out_A2 (hc : cond0_0 i) (x0 x1 : Vec F S1x1x128x1024 .f32) :
    out0_A_2 c i a2 h2 a3 h3 a4 h4 a5 h5 hc x0 x1 = bceStep x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x1) hz3]
  simp only [View.readAt_eq_ld, h2.read_unread, h3.read_unread, h4.read_unread, h5.read_unread,
    View.ld_unit_zero (S := S1x1x128x1024) hz4, View.ld_unit_zero (S := S1x1x1) hz3, View.readCov_unit_zero (S := S1x1x1) _ hz3]
  rfl

theorem out_A3 (hc : cond0_0 i) (x0 x1 : Vec F S1x1x128x1024 .f32) :
    out0_A_3 c i a2 h2 a3 h3 a4 h4 a5 h5 hc x0 x1 = topoStep x0 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3]
  simp only [View.readAt_eq_ld, h2.read_unread, h3.read_unread, h4.read_unread, h5.read_unread,
    View.ld_unit_zero (S := S1x1x128x1024) hz4, View.ld_unit_zero (S := S1x1x1) hz3, View.readCov_unit_zero (S := S1x1x1) _ hz3]
  rfl

end pieces

end Cert.KernelIdeal.KV

end
-- ==== Proof.KernelBce.lean ====
/-
  The cross-entropy accumulator's step at the ideal instance: the body adds, to what the accumulator held, the sum over
  the block's 128 rows of the sum over its 1024 columns of the pixel's stable cross-entropy.
-/
import proofs.«173670_j26302379721190_1_alg».proof.Proof.KernelValue
import Idealize.ShloMosaic.PureOps.Ideal.Laws
import Idealize.ShloMosaic.PureOps.Reduce

noncomputable section

open Idealize.ShloMosaic Idealize.ShloMosaic.TcCoe Idealize.SL.Sem Idealize.ShloMosaic.ValueIdx

namespace Cert.KernelIdeal.KV

open Cert.KernelIdeal Cert.KernelIdeal.Gen

/-- The zero the body stores at the first row band. -/
theorem pay1_apply (j : S1x1x1.Idx) : k0_pay1 (F := Ideal) j = 0 := by
  unfold k0_pay1
  exact Ideal.ofBits_zero_f32
theorem pay2_apply (j : S1x1x1.Idx) : k0_pay2 (F := Ideal) j = 0 := by
  unfold k0_pay2
  exact Ideal.ofBits_zero_f32

namespace Bce

/-! ## Shapes with one element: every index is the all-zero one -/

theorem idx111 (j : S1x1x1.Idx) : j = ix3 (0 : Fin 1) (0 : Fin 1) (0 : Fin 1) := by
  rw [eq_ix3 j]
  congr 1 <;> exact Fin.eq_zero _
theorem idx11 (j : S1x1.Idx) : j = ix2 (0 : Fin 1) (0 : Fin 1) := by
  rw [eq_ix2 j]
  congr 1 <;> exact Fin.eq_zero _

/-! ## The two sums: along a row, then down the column of row sums -/

/-- Putting column `k` back into a row index gives the pixel `(row, k)`. -/
theorem lift_row (h : S128x1024.Reduces [1] S128) (j : S128.Idx) (k : Fin 1024) :
    h.lift j k = ix2 (j 0) k := by
  funext a
  match a with
  | ⟨0, _⟩ => exact Fin.ext rfl
  | ⟨1, _⟩ => exact Fin.ext rfl

/-- Putting row `k` back into the index of a one-column result gives the entry `(k, 0)`. -/
theorem lift_col (h : S128x1.Reduces [0] S1) (j : S1.Idx) (k : Fin 128) :
    h.lift j k = ix2 k (j 0) := by
  funext a
  match a with
  | ⟨0, _⟩ => exact Fin.ext rfl
  | ⟨1, _⟩ => exact Fin.ext rfl

/-- The sum over the column axis of a 128 x 1024 array, read at row `r`: the sum of that row's 1024 entries. -/
theorem red_rows (v : FVec Ideal S128x1024 .f32) (h : S128x1024.Reduces [1] S128) (hφ : FKind.Formats .f32)
    (hacc : (0x00000000#32 : BitVec 32) = FKind.add.neutral .f32 hφ) (r : Fin 128) :
    multiReduction .add [1] S128 v 0x00000000#32 h hφ hacc (ix1 r) = ∑ c : Fin 1024, v (ix2 r c) := by
  refine (Ideal.multiReduction_add_single v _ h hφ hacc (ix1 r)).trans ?_
  exact Finset.sum_congr rfl fun c _ => congrArg v (lift_row h (ix1 r) c)

/-- The sum over the row axis of a 128 x 1 array, at its one index: the sum of the 128 entries of its column. -/
theorem red_col (v : FVec Ideal S128x1 .f32) (h : S128x1.Reduces [0] S1) (hφ : FKind.Formats .f32)
    (hacc : (0x00000000#32 : BitVec 32) = FKind.add.neutral .f32 hφ) (j : S1.Idx) :
    multiReduction .add [0] S1 v 0x00000000#32 h hφ hacc j = ∑ r : Fin 128, v (ix2 r (0 : Fin 1)) := by
  refine (Ideal.multiReduction_add_single v _ h hφ hacc j).trans ?_
  exact Finset.sum_congr rfl fun r _ => congrArg v ((lift_col h j r).trans (by rw [Fin.eq_zero (j 0)]; rfl))

/-! ## The changes of shape, read at an index: each keeps the row-major position -/

/-- A vector of 128 entries viewed as a 128 x 1 column reads entry `r` at `(r, 0)`: position `r * 1 + 0 = r`. -/
theorem cast_col_apply (v : FVec Ideal S128 .f32) (h : S128.ShapeCasts S128x1) (r : Fin 128) (u : Fin 1) :
    shapeCast S128x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A one-entry vector viewed as a 1 x 1 array reads its entry. -/
theorem cast_1_11_apply (v : FVec Ideal S1 .f32) (h : S1.ShapeCasts S1x1) (j : S1x1.Idx) :
    shapeCast S1x1 v h j = v (ix1 (0 : Fin 1)) := by
  rw [idx11 j]
  exact shapeCast_a_1a_apply v h 0 0

/-- A 1 x 1 array viewed as a 1 x 1 x 1 array reads its entry. -/
theorem cast_11_111_apply (v : FVec Ideal S1x1 .f32) (h : S1x1.ShapeCasts S1x1x1) (j : S1x1x1.Idx) :
    shapeCast S1x1x1 v h j = v (ix2 (0 : Fin 1) (0 : Fin 1)) := by
  rw [idx111 j]
  exact shapeCast_ab_1ab_apply v h 0 0 0

/-- The 1 x 1 x 128 x 1024 block viewed as a 128 x 1024 array reads pixel `(0, 0, r, c)` at `(r, c)`: both sit at
    position `1024 r + c`. -/
theorem cast_block_apply (v : Vec Ideal S1x1x128x1024 .f32) (h : S1x1x128x1024.ShapeCasts S128x1024)
    (r : Fin 128) (c : Fin 1024) :
    shapeCast S128x1024 v h (ix2 r c) = v (ix4 (0 : Fin 1) (0 : Fin 1) r c) :=
  shapeCast_apply v h _ _ (by
    rw [Shape.rowMajor_val_four, Shape.rowMajor_val_two]
    show ((0 * 1 + 0) * 128 + r.val) * 1024 + c.val = r.val * 1024 + c.val
    simp only [Nat.zero_mul, Nat.zero_add])

theorem pay3_apply (v : Vec Ideal S1x1x128x1024 .f32) (r : Fin 128) (c : Fin 1024) :
    k0_pay3 v (ix2 r c) = v (ix4 (0 : Fin 1) (0 : Fin 1) r c) := by
  unfold k0_pay3
  exact cast_block_apply v _ r c
theorem pay4_apply (v : Vec Ideal S1x1x128x1024 .f32) (r : Fin 128) (c : Fin 1024) :
    k0_pay4 v (ix2 r c) = v (ix4 (0 : Fin 1) (0 : Fin 1) r c) := by
  unfold k0_pay4
  exact cast_block_apply v _ r c

/-- The block's cross-entropy sum. Reading outermost operation first: the one entry of the result is the sum down the
    column of row sums; the row sum at `r` is the sum over the 1024 columns `c` of the pixel value; and the pixel value at
    `(r, c)`, with label `l` and logit `p` there, is `(max p 0 - p * l) + log1p (exp (0 - max p (-p)))`, where `0 - x = -x`. -/
theorem pay5_apply (x0 x1 : Vec Ideal S1x1x128x1024 .f32) (j : S1x1.Idx) :
    k0_pay5 x0 x1 j = ∑ r : Fin 128, ∑ c : Fin 1024,
          Spec.bceE (x0 (ix4 (0 : Fin 1) (0 : Fin 1) r c)) (x1 (ix4 (0 : Fin 1) (0 : Fin 1) r c)) := by
  unfold k0_pay5
  dsimp only
  refine (cast_1_11_apply _ _ j).trans ?_
  refine (red_col _ _ _ _ _).trans ?_
  refine Finset.sum_congr rfl fun r _ => ?_
  refine (cast_col_apply _ _ r 0).trans ?_
  refine (red_rows _ _ _ _ r).trans ?_
  refine Finset.sum_congr rfl fun c _ => ?_
  show (max (k0_pay4 x1 (ix2 r c)) (Ideal.ofBits .f32 0x00000000#32) - k0_pay4 x1 (ix2 r c) * k0_pay3 x0 (ix2 r c))
      + Ideal.log1p (Ideal.exp (Ideal.ofBits .f32 0x00000000#32 - max (k0_pay4 x1 (ix2 r c)) (-(k0_pay4 x1 (ix2 r c))))) = _
  rw [pay3_apply, pay4_apply, Ideal.ofBits_zero_f32, zero_sub]
  rfl

end Bce

/-- The first accumulator gains the cross-entropy of every pixel of the block, rows outside, columns inside. -/
theorem bceStep_apply (x0 x1 : Vec Ideal S1x1x128x1024 .f32) (acc : Vec Ideal S1x1x1 .f32) (j : S1x1x1.Idx) :
    bceStep x0 x1 acc j = acc (ix3 (0 : Fin 1) (0 : Fin 1) (0 : Fin 1))
      + ∑ r : Fin 128, ∑ c : Fin 1024,
          Spec.bceE (x0 (ix4 (0 : Fin 1) (0 : Fin 1) r c)) (x1 (ix4 (0 : Fin 1) (0 : Fin 1) r c)) := by
  unfold bceStep k0_pay40
  show shapeCast S1x1x1 acc shapeCasts_S1x1x1_S1x1x1 j + shapeCast S1x1x1 (k0_pay5 x0 x1) shapeCasts_S1x1_S1x1x1 j = _
  rw [shapeCast_self, Bce.cast_11_111_apply, Bce.pay5_apply, Bce.idx111 j]

end Cert.KernelIdeal.KV

end
-- ==== Proof.Algebra.lean ====
/-
  Re-indexing of finite sums and of finite maxima and minima over the extended reals: a flat index set against the
  nested order image, row band, row, column that a tiled computation meets it in. Only commutativity and associativity of
  addition, of max and of min are used.
-/
import proofs.«173670_j26302379721190_1_alg».proof.Proof.Spec
import Mathlib.Algebra.BigOperators.Fin
import Mathlib.Data.Fintype.BigOperators
import Mathlib.Data.Finset.Fold
import Mathlib.Data.Finset.Lattice.Fold
import Mathlib.Data.Finset.Lattice.Prod

noncomputable section

namespace Cert.Alg

open Idealize.ShloMosaic Idealize.ShloMosaic.ValueIdx Cert.Spec

/-! ## Splitting a range into bands: `128 h + r`, `8 h + w`, `128 r + c` -/

/-- A row index below 1024 is `128 h + r` for exactly one band `h` and one offset `r`: quotient and remainder by 128. -/
def rowEquiv : Fin 8 × Fin 128 ≃ Fin 1024 where
  toFun p := rowOf p.1 p.2
  invFun y := (⟨y.val / 128, by omega⟩, ⟨y.val % 128, by omega⟩)
  left_inv p := by
    obtain ⟨h, r⟩ := p
    refine Prod.ext (Fin.ext ?_) (Fin.ext ?_)
    · show (128 * h.val + r.val) / 128 = h.val
      omega
    · show (128 * h.val + r.val) % 128 = r.val
      omega
  right_inv y := by
    refine Fin.ext ?_
    show 128 * (y.val / 128) + y.val % 128 = y.val
    omega

/-- A tile number below 64 is `8 h + w` for exactly one row band and one column band. -/
def tileEquiv : Fin 8 × Fin 8 ≃ Fin 64 where
  toFun p := tileOf p.1 p.2
  invFun y := (⟨y.val / 8, by omega⟩, ⟨y.val % 8, by omega⟩)
  left_inv p := by
    obtain ⟨h, w⟩ := p
    refine Prod.ext (Fin.ext ?_) (Fin.ext ?_)
    · show (8 * h.val + w.val) / 8 = h.val
      omega
    · show (8 * h.val + w.val) % 8 = w.val
      omega
  right_inv y := by
    refine Fin.ext ?_
    show 8 * (y.val / 8) + y.val % 8 = y.val
    omega

/-- A cell number below 16384 is `128 r + c` for exactly one row and one column of the tile. -/
def cellEquiv : Fin 128 × Fin 128 ≃ Fin 16384 where
  toFun p := cellOf p.1 p.2
  invFun y := (⟨y.val / 128, by omega⟩, ⟨y.val % 128, by omega⟩)
  left_inv p := by
    obtain ⟨r, c⟩ := p
    refine Prod.ext (Fin.ext ?_) (Fin.ext ?_)
    · show (128 * r.val + c.val) / 128 = r.val
      omega
    · show (128 * r.val + c.val) % 128 = c.val
      omega
  right_inv y := by
    refine Fin.ext ?_
    show 128 * (y.val / 128) + y.val % 128 = y.val
    omega

/-- A sum over the 1024 rows, by band and offset in the band. -/
theorem sum_rows (f : Fin 1024 → EReal) : ∑ y : Fin 1024, f y = ∑ h : Fin 8, ∑ r : Fin 128, f (rowOf h r) := by
  rw [← Equiv.sum_comp rowEquiv f, Fintype.sum_prod_type]
  rfl

/-! ## The index sets of the arrays as products of their coordinate ranges -/

/-- An index of the image stack is its image number, its row and its column (the second axis has one position). -/
def imgEquiv : Fin 16 × Fin 1024 × Fin 1024 ≃ SIn.Idx where
  toFun p := ix4 p.1 (0 : Fin 1) p.2.1 p.2.2
  invFun i := (i 0, i 2, i 3)
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => rfl
    | ⟨3, _⟩ => rfl

/-- A sum over every pixel of the image stack, in the nested order image, row band, row in the band, column. -/
theorem sum_image (g : SIn.Idx → EReal) :
    ∑ i : SIn.Idx, g i = ∑ b : Fin 16, ∑ h : Fin 8, ∑ r : Fin 128, ∑ c : Fin 1024, g (ix4 b (0 : Fin 1) (rowOf h r) c) := by
  rw [← Equiv.sum_comp imgEquiv g, Fintype.sum_prod_type]
  refine Finset.sum_congr rfl fun b _ => ?_
  rw [Fintype.sum_prod_type, sum_rows]
  rfl

/-- A sum over the 64 tiles of an image, by row band and column band. -/
theorem sum_tiles (g : Fin 64 → EReal) : ∑ p : Fin 64, g p = ∑ h : Fin 8, ∑ w : Fin 8, g (tileOf h w) := by
  rw [← Equiv.sum_comp tileEquiv g, Fintype.sum_prod_type]
  rfl

/-- A fold of `max` from the bottom element is the finite supremum. -/
theorem fold_max_eq_sup {ι : Type*} (s : Finset ι) (f : ι → EReal) : s.fold max ⊥ f = s.sup f := rfl

/-- A fold of `min` from the top element is the finite infimum. -/
theorem fold_min_eq_inf {ι : Type*} (s : Finset ι) (f : ι → EReal) : s.fold min ⊤ f = s.inf f := rfl

/-- The maximum over the 16384 cells of a flattened tile is the maximum over its rows of the row maxima. -/
theorem fold_max_cells (g : Fin 16384 → EReal) :
    (Finset.univ : Finset (Fin 16384)).fold max ⊥ g = tileMax fun r c => g (cellOf r c) := by
  unfold tileMax
  simp only [fold_max_eq_sup]
  rw [← Finset.map_univ_equiv cellEquiv, Finset.sup_map, ← Finset.univ_product_univ, Finset.sup_product_left]
  rfl

/-- The same for the minimum. -/
theorem fold_min_cells (g : Fin 16384 → EReal) :
    (Finset.univ : Finset (Fin 16384)).fold min ⊤ g = tileMin fun r c => g (cellOf r c) := by
  unfold tileMin
  simp only [fold_min_eq_inf]
  rw [← Finset.map_univ_equiv cellEquiv, Finset.inf_map, ← Finset.univ_product_univ, Finset.inf_product_left]
  rfl

/-- An index of a 16 x 1 x 1 array is its first coordinate. -/
def accEquiv : Fin 16 ≃ (⟨3, ![16, 1, 1]⟩ : Shape).Idx where
  toFun b := ix3 b (0 : Fin 1) (0 : Fin 1)
  invFun i := i 0
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- A sum over a 16 x 1 x 1 array is a sum over its first coordinate. -/
theorem sum_acc (g : (⟨3, ![16, 1, 1]⟩ : Shape).Idx → EReal) :
    ∑ i : (⟨3, ![16, 1, 1]⟩ : Shape).Idx, g i = ∑ b : Fin 16, g (ix3 b (0 : Fin 1) (0 : Fin 1)) := by
  rw [← Equiv.sum_comp accEquiv g]
  rfl

/-- An index of a vector of 16 entries is its one coordinate. -/
def vecEquiv : Fin 16 ≃ (⟨1, ![16]⟩ : Shape).Idx where
  toFun b := ix1 b
  invFun i := i 0
  left_inv _ := rfl
  right_inv i := (eq_ix1 i).symm

/-- A sum over a vector of 16 entries. -/
theorem sum_vec16 (g : (⟨1, ![16]⟩ : Shape).Idx → EReal) :
    ∑ i : (⟨1, ![16]⟩ : Shape).Idx, g i = ∑ b : Fin 16, g (ix1 b) := by
  rw [← Equiv.sum_comp vecEquiv g]
  rfl

/-- Eight terms added one after the other onto `a` are `a` plus their sum. -/
theorem chain8 (a : EReal) (x : Fin 8 → EReal) :
    ((((((((a + x 0) + x 1) + x 2) + x 3) + x 4) + x 5) + x 6) + x 7) = a + ∑ w : Fin 8, x w := by
  rw [Fin.sum_univ_eight]
  simp only [add_assoc]

end Cert.Alg

end
-- ==== Proof.KernelTopo.lean ====
/-
  The penalty accumulator's step at the ideal instance: the body adds, to what the accumulator held, the penalties of the
  block's eight 128 x 128 tiles. Each tile's four extremes are taken rows first (a maximum or minimum along each row),
  then over the 128 row results; the eight penalties are added left to right onto zero.
-/
import proofs.«173670_j26302379721190_1_alg».proof.Proof.KernelValue
import proofs.«173670_j26302379721190_1_alg».proof.Proof.Algebra
import Idealize.ShloMosaic.PureOps.Ideal.Laws
import Idealize.ShloMosaic.PureOps.Reduce

noncomputable section

open Idealize.ShloMosaic Idealize.ShloMosaic.TcCoe Idealize.SL.Sem Idealize.ShloMosaic.ValueIdx

namespace Cert.KernelIdeal.KV

open Cert.KernelIdeal Cert.KernelIdeal.Gen

/-! ## The tile computation, at any float instance

The values the body computes on the way to the penalty are eight copies of one computation, one per 128-column band of
the block. It is written once here as a function of the band's first column, and the body's second result is that
function's eight values added onto zero and then onto the accumulator: nothing but the substitution of each
intermediate value. -/

namespace Topo

variable {F : FTy → Type} [FloatOps F]

/-- The maximum of a 128 x 128 tile: along each row, then over the 128 row results. -/
def tMax (t : FVec F S128x128 .f32) : FVec F S1x1 .f32 :=
  shapeCast S1x1
    (multiReduction .maximumf [0] S1
      (shapeCast S128x1 (multiReduction .maximumf [1] S128 t 0xFF800000#32 reduces_S128x128_S128 (.inl rfl) rfl)
        shapeCasts_S128_S128x1)
      0xFF800000#32 reduces_S128x1_S1 (.inl rfl) rfl)
    shapeCasts_S1_S1x1

/-- The minimum of a 128 x 128 tile, in the same order. -/
def tMin (t : FVec F S128x128 .f32) : FVec F S1x1 .f32 :=
  shapeCast S1x1
    (multiReduction .minimumf [0] S1
      (shapeCast S128x1 (multiReduction .minimumf [1] S128 t 0x7F800000#32 reduces_S128x128_S128 (.inl rfl) rfl)
        shapeCasts_S128_S128x1)
      0x7F800000#32 reduces_S128x1_S1 (.inl rfl) rfl)
    shapeCasts_S1_S1x1

/-- A tile's penalty from its four extremes. -/
def tLoss (pmax pmin gmax gmin : FVec F S1x1 .f32) : FVec F S1x1 .f32 :=
  select
    (andi (cmpf .ogt gmax (broadcast S1x1 (Scalar.ofBits .f32 0x3F000000#32)))
      (cmpf .olt gmin (broadcast S1x1 (Scalar.ofBits .f32 0x3F000000#32))))
    (addf
      (mulf (subf pmax (broadcast S1x1 (Scalar.ofBits .f32 0x3F800000#32)))
        (subf pmax (broadcast S1x1 (Scalar.ofBits .f32 0x3F800000#32))))
      (mulf pmin pmin))
    (broadcast S1x1 (Scalar.ofBits .f32 0x00000000#32))

/-- The penalty of the tile that starts at column `o`. -/
def tile (o : ℕ) (h : S128x1024.Slices ![0, o] S128x128) (lh gt : FVec F S128x1024 .f32) : FVec F S1x1 .f32 :=
  tLoss (tMax (extractStridedSlice S128x128 ![0, o] lh h)) (tMin (extractStridedSlice S128x128 ![0, o] lh h))
    (tMax (extractStridedSlice S128x128 ![0, o] gt h)) (tMin (extractStridedSlice S128x128 ![0, o] gt h))

/-- The eight penalties added left to right onto zero. -/
def chain (lh gt : FVec F S128x1024 .f32) : FVec F S1x1 .f32 :=
  addf (addf (addf (addf (addf (addf (addf (addf k0_pay8
    (tile 0 slices_S128x1024_o0_0_S128x128 lh gt))
    (tile 128 slices_S128x1024_o0_128_S128x128 lh gt))
    (tile 256 slices_S128x1024_o0_256_S128x128 lh gt))
    (tile 384 slices_S128x1024_o0_384_S128x128 lh gt))
    (tile 512 slices_S128x1024_o0_512_S128x128 lh gt))
    (tile 640 slices_S128x1024_o0_640_S128x128 lh gt))
    (tile 768 slices_S128x1024_o0_768_S128x128 lh gt))
    (tile 896 slices_S128x1024_o0_896_S128x128 lh gt)

set_option maxRecDepth 65536 in
/-- The body's second result is the accumulator's previous contents plus that chain: every intermediate value
    substituted. -/
theorem topoStep_eq_chain (x0 x1 : Vec F S1x1x128x1024 .f32) (acc : Vec F S1x1x1 .f32) :
    topoStep x0 x1 acc
      = addf (shapeCast S1x1x1 acc shapeCasts_S1x1x1_S1x1x1)
          (shapeCast S1x1x1 (chain (k0_pay7 x1) (k0_pay6 x0)) shapeCasts_S1x1_S1x1x1) := rfl

/-! ## The tile computation read at the ideal instance

A reduction along one axis is a fold of `max` (resp. `min`) over that axis's coordinates, from the bottom (resp. top)
element; the casts between a vector of 128, a column of 128 and the shapes of unit axes move no value; a slice from
column `128 w` reads the block at column `128 w + c`. -/

/-- A shape of unit axes has the one index. -/
theorem idx11 (j : S1x1.Idx) : j = ix2 (0 : Fin 1) (0 : Fin 1) := by
  funext d
  match d with
  | ⟨0, h0⟩ => exact Fin.ext (Nat.lt_one_iff.mp (j ⟨0, h0⟩).isLt)
  | ⟨1, h1⟩ => exact Fin.ext (Nat.lt_one_iff.mp (j ⟨1, h1⟩).isLt)

/-- Likewise at rank three. -/
theorem idx111 (j : S1x1x1.Idx) : j = ix3 (0 : Fin 1) (0 : Fin 1) (0 : Fin 1) := by
  funext d
  match d with
  | ⟨0, h0⟩ => exact Fin.ext (Nat.lt_one_iff.mp (j ⟨0, h0⟩).isLt)
  | ⟨1, h1⟩ => exact Fin.ext (Nat.lt_one_iff.mp (j ⟨1, h1⟩).isLt)
  | ⟨2, h2⟩ => exact Fin.ext (Nat.lt_one_iff.mp (j ⟨2, h2⟩).isLt)

/-- The index of a 128 x 128 tile over row `r` with column `c` put back. -/
theorem lift_row (r c : Fin 128) : reduces_S128x128_S128.lift (ix1 r) c = ix2 r c := by
  funext a
  match a with
  | ⟨0, _⟩ => rfl
  | ⟨1, _⟩ => rfl

/-- The index of the column of row results with row `r` put back. -/
theorem lift_col (r : Fin 128) : reduces_S128x1_S1.lift (ix1 (0 : Fin 1)) r = ix2 r (0 : Fin 1) := by
  funext a
  match a with
  | ⟨0, _⟩ => rfl
  | ⟨1, _⟩ => rfl

/-- A vector of 128 cast to a column reads the vector. -/
theorem cast_col {α : Type} (v : S128.Idx → α) (r : Fin 128) (u : Fin 1) :
    shapeCast S128x1 v shapeCasts_S128_S128x1 (ix2 r u) = v (ix1 r) :=
  shapeCast_apply v _ _ _ (by
    have hu := u.isLt
    rw [Shape.rowMajor_val_one, Shape.rowMajor_val_two]
    show r.val = r.val * 1 + u.val
    omega)

/-- A `minimumf` reduction over one axis at the ideal instance: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum along row `r` of a tile. -/
theorem rowMax_apply (t : FVec Ideal S128x128 .f32) (r : Fin 128) :
    multiReduction .maximumf [1] S128 t 0xFF800000#32 reduces_S128x128_S128 (.inl rfl) rfl (ix1 r)
      = (Finset.univ : Finset (Fin 128)).fold max ⊥ fun c => t (ix2 r c) := by
  refine (Ideal.multiReduction_maximumf_single t _ reduces_S128x128_S128 _ _ (ix1 r)).trans ?_
  rw [Ideal.ofBits_def, Spec.negInf_eq]
  exact congrArg (fun f => (Finset.univ : Finset (Fin 128)).fold max ⊥ f) (funext fun c => congrArg t (lift_row r c))

/-- The minimum along row `r` of a tile. -/
theorem rowMin_apply (t : FVec Ideal S128x128 .f32) (r : Fin 128) :
    multiReduction .minimumf [1] S128 t 0x7F800000#32 reduces_S128x128_S128 (.inl rfl) rfl (ix1 r)
      = (Finset.univ : Finset (Fin 128)).fold min ⊤ fun c => t (ix2 r c) := by
  refine (multiReduction_minimumf_single t _ reduces_S128x128_S128 _ _ (ix1 r)).trans ?_
  rw [Ideal.ofBits_def, Spec.posInf_eq]
  exact congrArg (fun f => (Finset.univ : Finset (Fin 128)).fold min ⊤ f) (funext fun c => congrArg t (lift_row r c))

/-- The maximum down a column of 128 row results. -/
theorem colMax_apply (v : FVec Ideal S128x1 .f32) :
    multiReduction .maximumf [0] S1 v 0xFF800000#32 reduces_S128x1_S1 (.inl rfl) rfl (ix1 (0 : Fin 1))
      = (Finset.univ : Finset (Fin 128)).fold max ⊥ fun r => v (ix2 r (0 : Fin 1)) := by
  refine (Ideal.multiReduction_maximumf_single v _ reduces_S128x1_S1 _ _ (ix1 (0 : Fin 1))).trans ?_
  rw [Ideal.ofBits_def, Spec.negInf_eq]
  exact congrArg (fun f => (Finset.univ : Finset (Fin 128)).fold max ⊥ f) (funext fun r => congrArg v (lift_col r))

/-- The minimum down a column of 128 row results. -/
theorem colMin_apply (v : FVec Ideal S128x1 .f32) :
    multiReduction .minimumf [0] S1 v 0x7F800000#32 reduces_S128x1_S1 (.inl rfl) rfl (ix1 (0 : Fin 1))
      = (Finset.univ : Finset (Fin 128)).fold min ⊤ fun r => v (ix2 r (0 : Fin 1)) := by
  refine (multiReduction_minimumf_single v _ reduces_S128x1_S1 _ _ (ix1 (0 : Fin 1))).trans ?_
  rw [Ideal.ofBits_def, Spec.posInf_eq]
  exact congrArg (fun f => (Finset.univ : Finset (Fin 128)).fold min ⊤ f) (funext fun r => congrArg v (lift_col r))

/-- The tile maximum the body computes is the specification's. -/
theorem tMax_apply (t : FVec Ideal S128x128 .f32) (j : S1x1.Idx) :
    tMax t j = Spec.tileMax fun r c => t (ix2 r c) := by
  rw [idx11 j]
  unfold tMax Spec.tileMax
  refine (shapeCast_a_1a_apply _ shapeCasts_S1_S1x1 (0 : Fin 1) (0 : Fin 1)).trans ?_
  refine (colMax_apply _).trans ?_
  exact congrArg (fun f => (Finset.univ : Finset (Fin 128)).fold max ⊥ f)
    (funext fun r => (cast_col _ r (0 : Fin 1)).trans (rowMax_apply t r))

/-- The tile minimum the body computes is the specification's. -/
theorem tMin_apply (t : FVec Ideal S128x128 .f32) (j : S1x1.Idx) :
    tMin t j = Spec.tileMin fun r c => t (ix2 r c) := by
  rw [idx11 j]
  unfold tMin Spec.tileMin
  refine (shapeCast_a_1a_apply _ shapeCasts_S1_S1x1 (0 : Fin 1) (0 : Fin 1)).trans ?_
  refine (colMin_apply _).trans ?_
  exact congrArg (fun f => (Finset.univ : Finset (Fin 128)).fold min ⊤ f)
    (funext fun r => (cast_col _ r (0 : Fin 1)).trans (rowMin_apply t r))

/-- The block with its two unit axes dropped reads the block. -/
theorem cast_block {α : Type} (v : S1x1x128x1024.Idx → α) (r : Fin 128) (c : Fin 1024) :
    shapeCast S128x1024 v shapeCasts_S1x1x128x1024_S128x1024 (ix2 r c) = v (ix4 (0 : Fin 1) (0 : Fin 1) r c) :=
  shapeCast_apply v _ _ _ (by
    rw [Shape.rowMajor_val_four, Shape.rowMajor_val_two]
    show ((0 * 1 + 0) * 128 + r.val) * 1024 + c.val = r.val * 1024 + c.val
    omega)

/-- The flipped labels of the block. -/
theorem gt_apply (x0 : Vec Ideal S1x1x128x1024 .f32) (r : Fin 128) (c : Fin 1024) :
    k0_pay6 x0 (ix2 r c) = Spec.gtE (x0 (ix4 (0 : Fin 1) (0 : Fin 1) r c)) := by
  unfold k0_pay6 k0_pay3 Spec.gtE
  exact congrArg (fun z : EReal => Spec.oneE - z) (cast_block x0 r c)

/-- The flipped likelihood of the block. -/
theorem lh_apply (x1 : Vec Ideal S1x1x128x1024 .f32) (r : Fin 128) (c : Fin 1024) :
    k0_pay7 x1 (ix2 r c) = Spec.lhE (x1 (ix4 (0 : Fin 1) (0 : Fin 1) r c)) := by
  unfold k0_pay7 k0_pay4 Spec.lhE
  exact congrArg (fun z : EReal => Ideal.logistic (Spec.oneE - z)) (cast_block x1 r c)

/-- The penalty the body computes from four extremes is the specification's. -/
theorem tLoss_apply (pmax pmin gmax gmin : FVec Ideal S1x1 .f32) (j : S1x1.Idx) :
    tLoss pmax pmin gmax gmin j = Spec.lossE (pmax j) (pmin j) (gmax j) (gmin j) := by
  unfold tLoss Spec.lossE
  exact congrArg
    (Scalar.select (IntOp.andi (Ideal.cmp .ogt (gmax j) Spec.halfE) (Ideal.cmp .olt (gmin j) Spec.halfE))
      ((pmax j - Spec.oneE) * (pmax j - Spec.oneE) + pmin j * pmin j))
    Ideal.ofBits_zero_f32

/-- The penalty of the tile at column band `w`. -/
theorem tile_apply (x0 x1 : Vec Ideal S1x1x128x1024 .f32) (w : Fin 8) (o : ℕ) (ho : o = 128 * w.val)
    (h : S128x1024.Slices ![0, o] S128x128) (j : S1x1.Idx) :
    tile o h (k0_pay7 x1) (k0_pay6 x0) j
      = Spec.tileLoss (fun r c => Spec.lhE (x1 (ix4 (0 : Fin 1) (0 : Fin 1) r (Spec.colOf w c))))
          (fun r c => Spec.gtE (x0 (ix4 (0 : Fin 1) (0 : Fin 1) r (Spec.colOf w c)))) := by
  subst ho
  have hl : (fun r c : Fin 128 => extractStridedSlice S128x128 ![0, 128 * w.val] (k0_pay7 x1) h (ix2 r c))
      = fun r c => Spec.lhE (x1 (ix4 (0 : Fin 1) (0 : Fin 1) r (Spec.colOf w c))) :=
    funext fun r => funext fun c =>
      (slice2_axis1_apply _ _ h r c (Spec.colOf w c) rfl).trans (lh_apply x1 r _)
  have hg : (fun r c : Fin 128 => extractStridedSlice S128x128 ![0, 128 * w.val] (k0_pay6 x0) h (ix2 r c))
      = fun r c => Spec.gtE (x0 (ix4 (0 : Fin 1) (0 : Fin 1) r (Spec.colOf w c))) :=
    funext fun r => funext fun c =>
      (slice2_axis1_apply _ _ h r c (Spec.colOf w c) rfl).trans (gt_apply x0 r _)
  unfold tile Spec.tileLoss
  rw [tLoss_apply, tMax_apply, tMin_apply, tMax_apply, tMin_apply, hl, hg]

end Topo

open Topo

/-- The second accumulator gains the penalties of the block's eight tiles. -/
theorem topoStep_apply (x0 x1 : Vec Ideal S1x1x128x1024 .f32) (acc : Vec Ideal S1x1x1 .f32) (j : S1x1x1.Idx) :
    topoStep x0 x1 acc j = acc (ix3 (0 : Fin 1) (0 : Fin 1) (0 : Fin 1))
      + ∑ w : Fin 8, Spec.tileLoss
          (fun r c => Spec.lhE (x1 (ix4 (0 : Fin 1) (0 : Fin 1) r (Spec.colOf w c))))
          (fun r c => Spec.gtE (x0 (ix4 (0 : Fin 1) (0 : Fin 1) r (Spec.colOf w c)))) := by
  rw [topoStep_eq_chain, idx111 j]
  refine (addf_apply _ _ _).trans ?_
  rw [shapeCast_self, shapeCast_ab_1ab_apply]
  refine congrArg (fun z : EReal => acc (ix3 (0 : Fin 1) (0 : Fin 1) (0 : Fin 1)) + z) ?_
  have h8 : k0_pay8 (F := Ideal) (ix2 (0 : Fin 1) (0 : Fin 1)) = 0 := Ideal.ofBits_zero_f32
  have key := Cert.Alg.chain8 (k0_pay8 (F := Ideal) (ix2 (0 : Fin 1) (0 : Fin 1)))
    (fun w : Fin 8 => Spec.tileLoss
      (fun r c => Spec.lhE (x1 (ix4 (0 : Fin 1) (0 : Fin 1) r (Spec.colOf w c))))
      (fun r c => Spec.gtE (x0 (ix4 (0 : Fin 1) (0 : Fin 1) r (Spec.colOf w c)))))
  refine Eq.trans ?_ (key.trans (by rw [h8, zero_add]))
  unfold chain
  simp only [addf_apply]
  rw [tile_apply x0 x1 0 0 rfl, tile_apply x0 x1 1 128 rfl, tile_apply x0 x1 2 256 rfl,
    tile_apply x0 x1 3 384 rfl, tile_apply x0 x1 4 512 rfl, tile_apply x0 x1 5 640 rfl,
    tile_apply x0 x1 6 768 rfl, tile_apply x0 x1 7 896 rfl]

end Cert.KernelIdeal.KV

end
-- ==== Proof.KernelRun.lean ====
/-
  The kernel's run, read as values at the ideal instance.

  The grid has 128 points: point t works on row band t % 8 of image t / 8. Each of the two accumulators is reset at the
  first row band of an image and written back after the last, so after point t it holds the sum, over the row bands of
  image t / 8 met so far, of what each band contributes (`accN`: a running sum that restarts whenever the point number
  is a multiple of 8). By induction on the point this is what the frame's proof data records (`outsAt_eq`); entry b of
  each output array is therefore the full eight-band sum of image b; and the host lines after the region add the 16
  entries, divide, and combine the two terms into the spec's total.
-/
import proofs.«173670_j26302379721190_1_alg».proof.Proof.KernelBce
import proofs.«173670_j26302379721190_1_alg».proof.Proof.KernelTopo
import proofs.«173670_j26302379721190_1_alg».proof.Proof.Algebra
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KR

open Cert.KernelIdeal Cert.KernelIdeal.Gen Cert.KernelIdeal.KV

/-! ## A running sum that restarts at every multiple of eight -/

/-- After step `n`: the terms `p k` for `k` from the last multiple of 8 up to `n`, added in order onto zero. -/
def accN (p : ℕ → EReal) : ℕ → EReal
  | 0 => 0 + p 0
  | n + 1 => if (n + 1) % 8 = 0 then 0 + p (n + 1) else accN p n + p (n + 1)

theorem accN_reset (p : ℕ → EReal) (n : ℕ) (h : n % 8 = 0) : accN p n = 0 + p n := by
  cases n with
  | zero => rfl
  | succ k => exact if_pos h

theorem accN_step (p : ℕ → EReal) (n : ℕ) (h : ¬(n + 1) % 8 = 0) : accN p (n + 1) = accN p n + p (n + 1) :=
  if_neg h

/-- At the last step of a group of eight the running sum is the whole group's sum. -/
theorem accN_band (p : ℕ → EReal) (b : ℕ) : accN p (8 * b + 7) = 0 + ∑ k : Fin 8, p (8 * b + k.val) := by
  rw [accN_step p (8 * b + 6) (by omega), accN_step p (8 * b + 5) (by omega), accN_step p (8 * b + 4) (by omega),
    accN_step p (8 * b + 3) (by omega), accN_step p (8 * b + 2) (by omega), accN_step p (8 * b + 1) (by omega),
    accN_step p (8 * b + 0) (by omega), accN_reset p (8 * b + 0) (by omega)]
  exact Cert.Alg.chain8 0 fun k : Fin 8 => p (8 * b + k.val)

/-! ## What each grid point contributes -/

variable (m : (ℓ : Loc nD τ sig) → Buf (Elt Ideal) ℓ) (ρ : Dev nD → PrngReg)

/-- The labels block and the logits block the body is handed at point `t`. -/
abbrev lblk (c : Dev nD) (t : Fin cfg0.N) : Vec Ideal S1x1x128x1024 .f32 := iblk m c 0 t
abbrev pblk (c : Dev nD) (t : Fin cfg0.N) : Vec Ideal S1x1x128x1024 .f32 := iblk m c 1 t

/-- The cross-entropy of the block of point `t`, and the penalties of its eight tiles. -/
def ptBce (c : Dev nD) (t : Fin cfg0.N) : EReal :=
  ∑ r : Fin 128, ∑ cc : Fin 1024,
    Spec.bceE (lblk m c t (ix4 (0 : Fin 1) (0 : Fin 1) r cc)) (pblk m c t (ix4 (0 : Fin 1) (0 : Fin 1) r cc))
def ptTopo (c : Dev nD) (t : Fin cfg0.N) : EReal :=
  ∑ w : Fin 8, Spec.tileLoss
    (fun r cc => Spec.lhE (pblk m c t (ix4 (0 : Fin 1) (0 : Fin 1) r (Spec.colOf w cc))))
    (fun r cc => Spec.gtE (lblk m c t (ix4 (0 : Fin 1) (0 : Fin 1) r (Spec.colOf w cc))))

/-- The same by point number (zero past the grid, where nothing reads them). -/
def ptBceN (c : Dev nD) (n : ℕ) : EReal := if h : n < cfg0.N then ptBce m c ⟨n, h⟩ else 0
def ptTopoN (c : Dev nD) (n : ℕ) : EReal := if h : n < cfg0.N then ptTopo m c ⟨n, h⟩ else 0

/-! ## The accumulators after each point -/

/-- What the two accumulators hold after point `n`, as the frame's proof data records it, is the two running sums. -/
theorem outsAt_eq (c : Dev nD) : ∀ (n : ℕ) (h : n < cfg0.N),
    outsAt0 m c n h = ((fun _ => accN (ptBceN m c) n), (fun _ => accN (ptTopoN m c) n))
  | 0, h => by
    rw [outsAt0_A m c ⟨0, h⟩ rfl, out_A2, out_A3]
    refine Prod.ext (funext fun j => ?_) (funext fun j => ?_)
    · show bceStep (lblk m c ⟨0, h⟩) (pblk m c ⟨0, h⟩) (k0_pay1 (F := Ideal)) j = accN (ptBceN m c) 0
      rw [bceStep_apply, pay1_apply]
      show 0 + ptBce m c ⟨0, h⟩ = 0 + ptBceN m c 0
      rw [ptBceN, dif_pos h]
    · show topoStep (lblk m c ⟨0, h⟩) (pblk m c ⟨0, h⟩) (k0_pay2 (F := Ideal)) j = accN (ptTopoN m c) 0
      rw [topoStep_apply, pay2_apply]
      show 0 + ptTopo m c ⟨0, h⟩ = 0 + ptTopoN m c 0
      rw [ptTopoN, dif_pos h]
  | n + 1, h => by
    by_cases h0 : (n + 1) % 8 = 0
    · rw [outsAt0_A m c ⟨n + 1, h⟩ h0, out_A2, out_A3]
      refine Prod.ext (funext fun j => ?_) (funext fun j => ?_)
      · show bceStep (lblk m c ⟨n + 1, h⟩) (pblk m c ⟨n + 1, h⟩) (k0_pay1 (F := Ideal)) j = accN (ptBceN m c) (n + 1)
        rw [bceStep_apply, pay1_apply, accN_reset _ _ h0]
        show 0 + ptBce m c ⟨n + 1, h⟩ = 0 + ptBceN m c (n + 1)
        rw [ptBceN, dif_pos h]
      · show topoStep (lblk m c ⟨n + 1, h⟩) (pblk m c ⟨n + 1, h⟩) (k0_pay2 (F := Ideal)) j = accN (ptTopoN m c) (n + 1)
        rw [topoStep_apply, pay2_apply, accN_reset _ _ h0]
        show 0 + ptTopo m c ⟨n + 1, h⟩ = 0 + ptTopoN m c (n + 1)
        rw [ptTopoN, dif_pos h]
    · rw [outsAt0_B m c ⟨n + 1, h⟩ h0, out_B2, out_B3]
      have ih := outsAt_eq c n (Nat.lt_of_succ_lt h)
      refine Prod.ext (funext fun j => ?_) (funext fun j => ?_)
      · show bceStep (lblk m c ⟨n + 1, h⟩) (pblk m c ⟨n + 1, h⟩) (outsAt0 m c n (Nat.lt_of_succ_lt h)).1 j
            = accN (ptBceN m c) (n + 1)
        rw [bceStep_apply, ih, accN_step _ _ h0]
        show accN (ptBceN m c) n + ptBce m c ⟨n + 1, h⟩ = accN (ptBceN m c) n + ptBceN m c (n + 1)
        rw [ptBceN, dif_pos h]
      · show topoStep (lblk m c ⟨n + 1, h⟩) (pblk m c ⟨n + 1, h⟩) (outsAt0 m c n (Nat.lt_of_succ_lt h)).2 j
            = accN (ptTopoN m c) (n + 1)
        rw [topoStep_apply, ih, accN_step _ _ h0]
        show accN (ptTopoN m c) n + ptTopo m c ⟨n + 1, h⟩ = accN (ptTopoN m c) n + ptTopoN m c (n + 1)
        rw [ptTopoN, dif_pos h]

/-! ## The output arrays after the run -/

/-- The printed index maps, decided over the grid: point `t` reads row band `t % 8` of image `t / 8` and writes entry
    `t / 8` of each output. -/
theorem idx_in0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)
theorem idx_in1 : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)
theorem idx_out2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)
theorem idx_out3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-- An output array whose entry `b` is the running sum after the last row band of image `b`. -/
def accArr (p : ℕ → EReal) : Vec Ideal S16x1x1 .f32 := fun i => accN p (8 * (i 0).val + 7)

/-- A write-back happens after the last row band of an image and writes that image's entry. -/
theorem flushed2_eq (c : Dev nD) (t : Fin cfg0.N) (hf : (cfg0.win 2).flush t = true) :
    (dats m 0 c).flushed 2 t = ((cfg0.win 2).blk t).view.read (Elt Ideal) (accArr (ptBceN m c)) := by
  have h7 : t.val % 8 = 7 := (flush0_2 t).mp hf
  show (cfg0.win 2).cut (grid0.coords t) ((dats m 0 c).after 2 t) = _
  rw [after0_2, outsAt_eq]
  funext j
  show accN (ptBceN m c) t.val = accArr (ptBceN m c) (((cfg0.win 2).blk t).view.emb j)
  unfold accArr
  refine congrArg (accN _) ?_
  show t.val = 8 * (win0_2.index t (0 : Fin 3) * 1 + 1 * (j 0).val) + 7
  have hj : (j 0).val < 1 := (j 0).isLt
  obtain ⟨e0, -, -⟩ := idx_out2 t
  omega

theorem flushed3_eq (c : Dev nD) (t : Fin cfg0.N) (hf : (cfg0.win 3).flush t = true) :
    (dats m 0 c).flushed 3 t = ((cfg0.win 3).blk t).view.read (Elt Ideal) (accArr (ptTopoN m c)) := by
  have h7 : t.val % 8 = 7 := (flush0_3 t).mp hf
  show (cfg0.win 3).cut (grid0.coords t) ((dats m 0 c).after 3 t) = _
  rw [after0_3, outsAt_eq]
  funext j
  show accN (ptTopoN m c) t.val = accArr (ptTopoN m c) (((cfg0.win 3).blk t).view.emb j)
  unfold accArr
  refine congrArg (accN _) ?_
  show t.val = 8 * (win0_3.index t (0 : Fin 3) * 1 + 1 * (j 0).val) + 7
  have hj : (j 0).val < 1 := (j 0).isLt
  obtain ⟨e0, -, -⟩ := idx_out3 t
  omega

/-- Entry `b` of an output is written by the point after the last row band of image `b`. -/
theorem lastPoint_lt (i : S16x1x1.Idx) : 8 * (i 0).val + 7 < cfg0.N := by
  have hi : (i 0).val < 16 := (i 0).isLt
  rw [show cfg0.N = 128 from N_0]
  omega

theorem final2 (c : Dev nD) : (dats m 0 c).arrAt 2 cfg0.N = accArr (ptBceN m c) :=
  (dats m 0 c).arrAt_eq_of_cover 2 (accArr (ptBceN m c)) (flushed2_eq m c) fun i => by
    have hi0 : (i 0).val < 16 := (i 0).isLt
    have hi1 : (i 1).val < 1 := (i 1).isLt
    have hi2 : (i 2).val < 1 := (i 2).isLt
    refine ⟨⟨8 * (i 0).val + 7, lastPoint_lt i⟩, (flush0_2 _).mpr (by show (8 * (i 0).val + 7) % 8 = 7; omega), ?_⟩
    show i ∈ ((View.whole main_v0_0).slice (win0_2.rect ⟨8 * (i 0).val + 7, lastPoint_lt i⟩)).set
    rw [View.set_slice_whole, Rect.mem_set_unit]
    obtain ⟨e0, e1, e2⟩ := idx_out2 ⟨8 * (i 0).val + 7, lastPoint_lt i⟩
    intro a
    match a with
    | ⟨0, _⟩ =>
      show win0_2.index ⟨8 * (i 0).val + 7, lastPoint_lt i⟩ (0 : Fin 3) * 1 ≤ (i 0).val
        ∧ (i 0).val < win0_2.index ⟨8 * (i 0).val + 7, lastPoint_lt i⟩ (0 : Fin 3) * 1 + 1
      rw [e0]; dsimp only; omega
    | ⟨1, _⟩ =>
      show win0_2.index ⟨8 * (i 0).val + 7, lastPoint_lt i⟩ (1 : Fin 3) * 1 ≤ (i 1).val
        ∧ (i 1).val < win0_2.index ⟨8 * (i 0).val + 7, lastPoint_lt i⟩ (1 : Fin 3) * 1 + 1
      rw [e1]; omega
    | ⟨2, _⟩ =>
      show win0_2.index ⟨8 * (i 0).val + 7, lastPoint_lt i⟩ (2 : Fin 3) * 1 ≤ (i 2).val
        ∧ (i 2).val < win0_2.index ⟨8 * (i 0).val + 7, lastPoint_lt i⟩ (2 : Fin 3) * 1 + 1
      rw [e2]; omega

theorem final3 (c : Dev nD) : (dats m 0 c).arrAt 3 cfg0.N = accArr (ptTopoN m c) :=
  (dats m 0 c).arrAt_eq_of_cover 3 (accArr (ptTopoN m c)) (flushed3_eq m c) fun i => by
    have hi0 : (i 0).val < 16 := (i 0).isLt
    have hi1 : (i 1).val < 1 := (i 1).isLt
    have hi2 : (i 2).val < 1 := (i 2).isLt
    refine ⟨⟨8 * (i 0).val + 7, lastPoint_lt i⟩, (flush0_3 _).mpr (by show (8 * (i 0).val + 7) % 8 = 7; omega), ?_⟩
    show i ∈ ((View.whole main_v0_1).slice (win0_3.rect ⟨8 * (i 0).val + 7, lastPoint_lt i⟩)).set
    rw [View.set_slice_whole, Rect.mem_set_unit]
    obtain ⟨e0, e1, e2⟩ := idx_out3 ⟨8 * (i 0).val + 7, lastPoint_lt i⟩
    intro a
    match a with
    | ⟨0, _⟩ =>
      show win0_3.index ⟨8 * (i 0).val + 7, lastPoint_lt i⟩ (0 : Fin 3) * 1 ≤ (i 0).val
        ∧ (i 0).val < win0_3.index ⟨8 * (i 0).val + 7, lastPoint_lt i⟩ (0 : Fin 3) * 1 + 1
      rw [e0]; dsimp only; omega
    | ⟨1, _⟩ =>
      show win0_3.index ⟨8 * (i 0).val + 7, lastPoint_lt i⟩ (1 : Fin 3) * 1 ≤ (i 1).val
        ∧ (i 1).val < win0_3.index ⟨8 * (i 0).val + 7, lastPoint_lt i⟩ (1 : Fin 3) * 1 + 1
      rw [e1]; omega
    | ⟨2, _⟩ =>
      show win0_3.index ⟨8 * (i 0).val + 7, lastPoint_lt i⟩ (2 : Fin 3) * 1 ≤ (i 2).val
        ∧ (i 2).val < win0_3.index ⟨8 * (i 0).val + 7, lastPoint_lt i⟩ (2 : Fin 3) * 1 + 1
      rw [e2]; omega

/-! ## The blocks are bands of the input images -/

/-- Entry `(r, cc)` of the labels block of point `t` is pixel `(128 (t % 8) + r, cc)` of image `t / 8`. -/
theorem lblk_apply (c : Dev nD) (b : Fin 16) (h : Fin 8) (ht : 8 * b.val + h.val < cfg0.N) (r : Fin 128) (cc : Fin 1024) :
    lblk m c ⟨8 * b.val + h.val, ht⟩ (ix4 (0 : Fin 1) (0 : Fin 1) r cc)
      = m ((c : Thread nD τ).loc main_arg0) (ix4 b (0 : Fin 1) (Spec.rowOf h r) cc) := by
  obtain ⟨e0, e1, e2, e3⟩ := idx_in0 ⟨8 * b.val + h.val, ht⟩
  unfold lblk iblk
  rw [View.read_apply]
  show V m c main_arg0 _ = m ((c : Thread nD τ).loc main_arg0) _
  rw [V_main_arg0]
  congr 1
  funext a
  apply Fin.ext
  have hb : b.val < 16 := b.isLt
  have hh : h.val < 8 := h.isLt
  match a with
  | ⟨0, _⟩ => show win0_0.index ⟨8 * b.val + h.val, ht⟩ (0 : Fin 4) * 1 + 1 * 0 = b.val; rw [e0]; dsimp only; omega
  | ⟨1, _⟩ => show win0_0.index ⟨8 * b.val + h.val, ht⟩ (1 : Fin 4) * 1 + 1 * 0 = 0; rw [e1]
  | ⟨2, _⟩ => show win0_0.index ⟨8 * b.val + h.val, ht⟩ (2 : Fin 4) * 128 + 1 * r.val = 128 * h.val + r.val; rw [e2]; dsimp only; omega
  | ⟨3, _⟩ => show win0_0.index ⟨8 * b.val + h.val, ht⟩ (3 : Fin 4) * 1024 + 1 * cc.val = cc.val; rw [e3]; omega

theorem pblk_apply (c : Dev nD) (b : Fin 16) (h : Fin 8) (ht : 8 * b.val + h.val < cfg0.N) (r : Fin 128) (cc : Fin 1024) :
    pblk m c ⟨8 * b.val + h.val, ht⟩ (ix4 (0 : Fin 1) (0 : Fin 1) r cc)
      = m ((c : Thread nD τ).loc main_arg1) (ix4 b (0 : Fin 1) (Spec.rowOf h r) cc) := by
  obtain ⟨e0, e1, e2, e3⟩ := idx_in1 ⟨8 * b.val + h.val, ht⟩
  unfold pblk iblk
  rw [View.read_apply]
  show V m c main_arg1 _ = m ((c : Thread nD τ).loc main_arg1) _
  rw [V_main_arg1]
  congr 1
  funext a
  apply Fin.ext
  have hb : b.val < 16 := b.isLt
  have hh : h.val < 8 := h.isLt
  match a with
  | ⟨0, _⟩ => show win0_1.index ⟨8 * b.val + h.val, ht⟩ (0 : Fin 4) * 1 + 1 * 0 = b.val; rw [e0]; dsimp only; omega
  | ⟨1, _⟩ => show win0_1.index ⟨8 * b.val + h.val, ht⟩ (1 : Fin 4) * 1 + 1 * 0 = 0; rw [e1]
  | ⟨2, _⟩ => show win0_1.index ⟨8 * b.val + h.val, ht⟩ (2 : Fin 4) * 128 + 1 * r.val = 128 * h.val + r.val; rw [e2]; dsimp only; omega
  | ⟨3, _⟩ => show win0_1.index ⟨8 * b.val + h.val, ht⟩ (3 : Fin 4) * 1024 + 1 * cc.val = cc.val; rw [e3]; omega

theorem point_lt (b : Fin 16) (h : Fin 8) : 8 * b.val + h.val < cfg0.N := by
  have hb : b.val < 16 := b.isLt
  have hh : h.val < 8 := h.isLt
  rw [show cfg0.N = 128 from N_0]
  omega

/-- So a point's contributions are the spec's per-band terms of the two input images. -/
theorem ptBceN_eq (c : Dev nD) (b : Fin 16) (h : Fin 8) :
    ptBceN m c (8 * b.val + h.val)
      = Spec.blockBce (m ((c : Thread nD τ).loc main_arg0)) (m ((c : Thread nD τ).loc main_arg1)) b h := by
  rw [ptBceN, dif_pos (point_lt b h)]
  unfold ptBce Spec.blockBce
  refine Finset.sum_congr rfl fun r _ => Finset.sum_congr rfl fun cc _ => ?_
  rw [lblk_apply m c b h (point_lt b h) r cc, pblk_apply m c b h (point_lt b h) r cc]

theorem ptTopoN_eq (c : Dev nD) (b : Fin 16) (h : Fin 8) :
    ptTopoN m c (8 * b.val + h.val)
      = Spec.blockTopo (m ((c : Thread nD τ).loc main_arg0)) (m ((c : Thread nD τ).loc main_arg1)) b h := by
  rw [ptTopoN, dif_pos (point_lt b h)]
  unfold ptTopo Spec.blockTopo Spec.patchLoss
  refine Finset.sum_congr rfl fun w _ => ?_
  congr 1
  · funext r cc
    rw [pblk_apply m c b h (point_lt b h) r (Spec.colOf w cc)]
  · funext r cc
    rw [lblk_apply m c b h (point_lt b h) r (Spec.colOf w cc)]

/-- Summed over its 16 entries, an output array is the sum over images and row bands. -/
theorem sum_accArr (p : ℕ → EReal) :
    ∑ i : S16x1x1.Idx, accArr p i = ∑ b : Fin 16, ∑ h : Fin 8, p (8 * b.val + h.val) := by
  rw [Cert.Alg.sum_acc]
  refine Finset.sum_congr rfl fun b _ => ?_
  show accN p (8 * b.val + 7) = _
  rw [accN_band, zero_add]

/-! ## The host lines after the region, and the run -/

/-- The eleven host lines after the region as one term over the two output arrays: each is summed from zero and
    divided (by the pixel count, by the image count), the second is multiplied by one, and the two are added. -/
def tail (A B : Vec Ideal S16x1x1 .f32) : (⟨S_, .f32⟩ : BufTy).Contents (Elt Ideal) :=
  addf
    (Host.divf (Host.reduceAdd A (constant (F := Ideal) S_ .f32 0x00000000#32) reducesTo_S16x1x1_S_d0_1_2 h_S_)
      (constant (F := Ideal) S_ .f32 0x4B800000#32))
    (mulf (constant (F := Ideal) S_ .f32 0x3F800000#32)
      (Host.divf (Host.reduceAdd B (constant (F := Ideal) S_ .f32 0x00000000#32) reducesTo_S16x1x1_S_d0_1_2 h_S_)
        (constant (F := Ideal) S_ .f32 0x41800000#32)))

/-- The result buffer after the run holds that term of the two output arrays. -/
theorem tail_run (c : Dev nD) :
    Pipeline.afterTail₀ cfgs (dats m) 0 (V0 m) [hostOps1] c main_v6
      = tail (accArr (ptBceN m c)) (accArr (ptTopoN m c)) := by
  unfold Pipeline.afterTail₀
  show StableHlo.after hostOps1 _ (Proc.devRef .tc main_v6) = _
  after_results
  have e2 : Pipeline.withArrays (cfgs 0).spec c (V0 m c) (fun w => (dats m 0 c).arrAt w (cfgs 0).N)
      (Proc.devRef .tc main_v0_0) = accArr (ptBceN m c) :=
    (Pipeline.withArrays_arr spec0 launch0.win.arr_inj c _ _ 2).trans (final2 m c)
  have e3 : Pipeline.withArrays (cfgs 0).spec c (V0 m c) (fun w => (dats m 0 c).arrAt w (cfgs 0).N)
      (Proc.devRef .tc main_v0_1) = accArr (ptTopoN m c) :=
    (Pipeline.withArrays_arr spec0 launch0.win.arr_inj c _ _ 3).trans (final3 m c)
  rw [e2, e3]
  rfl

/-- The tail at its one index: the two grand sums, divided and combined. -/
theorem tail_apply (p q : ℕ → EReal) (i : S_.Idx) :
    tail (accArr p) (accArr q) i
      = Ideal.div (∑ b : Fin 16, ∑ h : Fin 8, p (8 * b.val + h.val)) Spec.nPixE
        + Spec.oneE * Ideal.div (∑ b : Fin 16, ∑ h : Fin 8, q (8 * b.val + h.val)) Spec.nImgE := by
  have e : ∀ A : Vec Ideal S16x1x1 .f32,
      Host.reduceAdd A (constant (F := Ideal) S_ .f32 0x00000000#32) reducesTo_S16x1x1_S_d0_1_2 h_S_ i
        = Ideal.ofBits .f32 0x00000000#32 + ∑ j : S16x1x1.Idx, A j := by
    intro A
    simp only [Host.reduceAdd, Ideal.hostReduceAdd_def]
    exact Ideal.hostReduceAdd_total reducesTo_S16x1x1_S_d0_1_2 (fun b => b.elim0) A _ i
  show Ideal.div (Host.reduceAdd (accArr p) (constant (F := Ideal) S_ .f32 0x00000000#32) reducesTo_S16x1x1_S_d0_1_2 h_S_ i) Spec.nPixE
      + Spec.oneE * Ideal.div (Host.reduceAdd (accArr q) (constant (F := Ideal) S_ .f32 0x00000000#32) reducesTo_S16x1x1_S_d0_1_2 h_S_ i) Spec.nImgE = _
  rw [e, e, Ideal.ofBits_zero_f32, zero_add, zero_add, sum_accArr, sum_accArr]

/-- The kernel's result is the spec's total of the two input images. -/
theorem result_eq (c : Dev nD) :
    tail (accArr (ptBceN m c)) (accArr (ptTopoN m c))
      = fun _ => Spec.total (m ((c : Thread nD τ).loc main_arg0)) (m ((c : Thread nD τ).loc main_arg1)) := by
  funext i
  rw [tail_apply]
  unfold Spec.total
  simp only [ptBceN_eq, ptTopoN_eq]

/-- The run at the ideal instance: every weakly fair execution terminates with the result buffer at the spec's total of
    the argument arrays, and the arguments unchanged. -/
theorem run : θ_run defs (onTc (τ := τ) (main (F := Ideal))) ⟨m, fun _ => 0, ρ⟩ fun r => ∀ c : Dev nD,
      r.2.mem ((c : Thread nD τ).loc main_v6)
          = (fun _ => Spec.total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 rfl (by decide))).trans ((tail_run m c).trans (result_eq m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KR

end
-- ==== Proof.RefBce.lean ====
/-
  The reference's first term at the ideal instance: the cross-entropy of every pixel, summed over the whole image stack at
  once from zero and divided by the pixel count, is the spec's nested sum divided by the same word.
-/
import proofs.«173670_j26302379721190_1_alg».proof.Proof.Gen.ReferenceIdeal.Read
import proofs.«173670_j26302379721190_1_alg».proof.Proof.Spec
import proofs.«173670_j26302379721190_1_alg».proof.Proof.Algebra
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefSide

open Cert.ReferenceIdeal Cert.ReferenceIdeal.Gen Cert.ReferenceIdeal.Read
open Idealize.ShloMosaic Idealize.ShloMosaic.ValueIdx

/-- The mean cross-entropy stage is the spec's first term. -/
theorem bce_eq (x0 x1 : (⟨S16x1x1024x1024, .f32⟩ : BufTy).Contents (Elt Ideal)) (i : S_.Idx) :
    val_main_v10 (F := Ideal) x0 x1 i
      = Ideal.div (∑ b : Fin 16, ∑ h : Fin 8, Cert.Spec.blockBce x0 x1 b h) Cert.Spec.nPixE := by
  -- The quotient of the total by the pixel-count word; the total starts from the zero word, which is 0.
  rw [val_main_v10_apply, val_main_v9_apply, val_main_cst_0_apply, val_main_cst_1_apply]
  simp only [Ideal.hostDivf_def, Ideal.ofBits_def, Ideal.ofBits_zero_f32, zero_add]
  refine congrArg (fun s => Ideal.div s Cert.Spec.nPixE) ?_
  -- The flat sum over the image stack, regrouped as image, row band, row, column.
  refine (Cert.Alg.sum_image fun j => val_main_v8 (F := Ideal) x0 x1 j).trans ?_
  refine Finset.sum_congr rfl fun b _ => Finset.sum_congr rfl fun h _ => ?_
  unfold Cert.Spec.blockBce
  refine Finset.sum_congr rfl fun r _ => Finset.sum_congr rfl fun c _ => ?_
  -- One pixel: each stage is the exact operation on extended reals.
  simp only [val_main_v8_apply, val_main_v7_apply, val_main_v6_apply, val_main_v5_apply, val_main_v4_apply,
    val_main_v3_apply, val_main_v2_apply, val_main_v1_apply, val_main_v0_apply, val_main_cst_apply,
    Ideal.addf_def, Ideal.subf_def, Ideal.mulf_def, Ideal.maximumf_def, Ideal.hostAbsf_def, Ideal.absf_def,
    Ideal.hostNegf_def, Ideal.negf_def, Ideal.hostUnary_exp_def, Ideal.hostUnary_log1p_def, Ideal.ofBits_def,
    Ideal.ofBits_zero_f32, Cert.Spec.bceE]

end Cert.ReferenceIdeal.RefSide

end
-- ==== Proof.RefTopo.lean ====
/-
  The reference's second term at the ideal instance. Each image is regrouped into 64 flattened 128 x 128 tiles (a reshape, a
  transpose of the two middle axes, a reshape): cell k of tile p of image b is pixel (128 (p / 8) + k / 128,
  128 (p % 8) + k % 128). A tile's maximum and minimum over its 16384 cells are the spec's rows-then-columns extremes; jax's
  expansion of the logistic function (negate, exponential, add one, divide one by it) is the ideal logistic function; the
  sum over 64 tiles is the sum over row bands and column bands.
-/
import proofs.«173670_j26302379721190_1_alg».proof.Proof.Gen.ReferenceIdeal.Read
import proofs.«173670_j26302379721190_1_alg».proof.Proof.Spec
import proofs.«173670_j26302379721190_1_alg».proof.Proof.Algebra
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

noncomputable section

namespace Cert.ReferenceIdeal.RefSide

open Cert.ReferenceIdeal Cert.ReferenceIdeal.Gen Cert.ReferenceIdeal.Read
open Idealize.ShloMosaic Idealize.ShloMosaic.ValueIdx

/-- The flipped label at a pixel. -/
private theorem v12_at (x0 : (⟨S16x1x1024x1024, .f32⟩ : BufTy).Contents (Elt Ideal)) (q : S16x1x1024x1024.Idx) :
    val_main_v12 (F := Ideal) x0 q = Cert.Spec.gtE (x0 q) := by
  rw [val_main_v12_apply, val_main_v11_apply, val_main_cst_2_apply]
  rfl

/-- The flipped likelihood at a pixel: the expansion negate, exponential, add one, divide one by it is the logistic
    function, the word of one being the extended real one. -/
private theorem v20_at (x1 : (⟨S16x1x1024x1024, .f32⟩ : BufTy).Contents (Elt Ideal)) (q : S16x1x1024x1024.Idx) :
    val_main_v20 (F := Ideal) x1 q = Cert.Spec.lhE (x1 q) := by
  rw [val_main_v20_apply, val_main_v19_apply, val_main_cst_5_apply, val_main_v18_apply, val_main_v17_apply,
    val_main_cst_4_apply, val_main_v16_apply, val_main_v15_apply, val_main_v14_apply, val_main_v13_apply,
    val_main_cst_3_apply]
  show Ideal.div Cert.Spec.oneE (Cert.Spec.oneE + Ideal.exp (-(Cert.Spec.oneE - x1 q))) = _
  unfold Cert.Spec.lhE Ideal.logistic
  rw [show Cert.Spec.oneE = (1 : EReal) from Ideal.ofBits_one_f32]

/-- Undoing the last reshape: cell `128 r + c` of tile `8 h + w` of image `b` is entry `(b, h, w, r, c)`. -/
private theorem idx25_tile (b : Fin 16) (h w : Fin 8) (r c : Fin 128) :
    idx_main_v25 (ix3 b (Cert.Spec.tileOf h w) (Cert.Spec.cellOf r c)) = ix5 b h w r c := by
  have hb := b.isLt; have hh := h.isLt; have hw := w.isLt; have hr := r.isLt; have hc := c.isLt
  funext a
  refine Fin.ext ?_
  match a with
  | ⟨0, _⟩ =>
    show ((b.val * 64 + (8 * h.val + w.val)) * 16384 + (128 * r.val + c.val)) / 1048576 = b.val
    omega
  | ⟨1, _⟩ =>
    show ((b.val * 64 + (8 * h.val + w.val)) * 16384 + (128 * r.val + c.val)) / 131072 % 8 = h.val
    omega
  | ⟨2, _⟩ =>
    show ((b.val * 64 + (8 * h.val + w.val)) * 16384 + (128 * r.val + c.val)) / 16384 % 8 = w.val
    omega
  | ⟨3, _⟩ =>
    show ((b.val * 64 + (8 * h.val + w.val)) * 16384 + (128 * r.val + c.val)) / 128 % 128 = r.val
    omega
  | ⟨4, _⟩ =>
    show ((b.val * 64 + (8 * h.val + w.val)) * 16384 + (128 * r.val + c.val)) % 128 = c.val
    omega

/-- Undoing the transpose of the two middle axes. -/
private theorem idx24_tile (b : Fin 16) (h w : Fin 8) (r c : Fin 128) :
    idx_main_v24 (ix5 b h w r c) = ix5 b h r w c := by
  funext a
  refine Fin.ext ?_
  match a with
  | ⟨0, _⟩ => rfl
  | ⟨1, _⟩ => rfl
  | ⟨2, _⟩ => rfl
  | ⟨3, _⟩ => rfl
  | ⟨4, _⟩ => rfl

/-- Undoing the reshape of rows and columns into bands: entry `(b, h, r, w, c)` is row `128 h + r`, column `128 w + c`. -/
private theorem idx23_tile (b : Fin 16) (h w : Fin 8) (r c : Fin 128) :
    idx_main_v23 (ix5 b h r w c) = ix3 b (Cert.Spec.rowOf h r) (Cert.Spec.colOf w c) := by
  have hb := b.isLt; have hh := h.isLt; have hw := w.isLt; have hr := r.isLt; have hc := c.isLt
  funext a
  refine Fin.ext ?_
  match a with
  | ⟨0, _⟩ =>
    show ((((b.val * 8 + h.val) * 128 + r.val) * 8 + w.val) * 128 + c.val) / 1048576 = b.val
    omega
  | ⟨1, _⟩ =>
    show ((((b.val * 8 + h.val) * 128 + r.val) * 8 + w.val) * 128 + c.val) / 1024 % 1024 = 128 * h.val + r.val
    omega
  | ⟨2, _⟩ =>
    show ((((b.val * 8 + h.val) * 128 + r.val) * 8 + w.val) * 128 + c.val) % 1024 = 128 * w.val + c.val
    omega

/-- Undoing the reshape that drops the unit axis. -/
private theorem idx21_tile (b : Fin 16) (R C : Fin 1024) :
    idx_main_v21 (ix3 b R C) = ix4 b (0 : Fin 1) R C := by
  have hb := b.isLt; have hR := R.isLt; have hC := C.isLt
  funext a
  refine Fin.ext ?_
  match a with
  | ⟨0, _⟩ =>
    show ((b.val * 1024 + R.val) * 1024 + C.val) / 1048576 = b.val
    omega
  | ⟨1, _⟩ => rfl
  | ⟨2, _⟩ =>
    show ((b.val * 1024 + R.val) * 1024 + C.val) / 1024 % 1024 = R.val
    omega
  | ⟨3, _⟩ =>
    show ((b.val * 1024 + R.val) * 1024 + C.val) % 1024 = C.val
    omega

/-- Cell `128 r + c` of tile `8 h + w` of image `b` of the regrouped likelihood is the likelihood of pixel
    `(128 h + r, 128 w + c)` of that image. -/
private theorem v25_at (x1 : (⟨S16x1x1024x1024, .f32⟩ : BufTy).Contents (Elt Ideal)) (b : Fin 16) (h w : Fin 8) (r c : Fin 128) :
    val_main_v25 (F := Ideal) x1 (ix3 b (Cert.Spec.tileOf h w) (Cert.Spec.cellOf r c))
      = Cert.Spec.lhE (x1 (ix4 b (0 : Fin 1) (Cert.Spec.rowOf h r) (Cert.Spec.colOf w c))) := by
  rw [val_main_v25_apply, idx25_tile, val_main_v24_apply, idx24_tile, val_main_v23_apply, idx23_tile,
    val_main_v21_apply, idx21_tile, v20_at]

/-- The same for the regrouped flipped labels. -/
private theorem v28_at (x0 : (⟨S16x1x1024x1024, .f32⟩ : BufTy).Contents (Elt Ideal)) (b : Fin 16) (h w : Fin 8) (r c : Fin 128) :
    val_main_v28 (F := Ideal) x0 (ix3 b (Cert.Spec.tileOf h w) (Cert.Spec.cellOf r c))
      = Cert.Spec.gtE (x0 (ix4 b (0 : Fin 1) (Cert.Spec.rowOf h r) (Cert.Spec.colOf w c))) := by
  rw [val_main_v28_apply, show idx_main_v28 = idx_main_v25 from rfl, idx25_tile, val_main_v27_apply,
    show idx_main_v27 = idx_main_v24 from rfl, idx24_tile, val_main_v26_apply,
    show idx_main_v26 = idx_main_v23 from rfl, idx23_tile, val_main_v22_apply,
    show idx_main_v22 = idx_main_v21 from rfl, idx21_tile, v12_at]

/-- A maximum-reduce of a [16, 64, 16384] array over its last axis, at tile `p` of image `b`: the fold of the maximum
    from the initial value over the tile's 16384 cells. -/
private theorem reduce_max_at (y : S16x64x16384.Idx → EReal) (init : S_.Idx → EReal) (b : Fin 16) (p : Fin 64) :
    Host.reduce (FloatOps.maximumf (F := Ideal) (φ := .f32)) y init reducesTo_S16x64x16384_S16x64_d2 h_S_ (ix2 b p)
      = (Finset.univ : Finset (Fin 16384)).fold max (init (Shape.Idx.first h_S_)) (fun k => y (ix3 b p k)) := by
  have hR : S16x64x16384.Reduces [2] S16x64 := by decide
  rw [Host.reduce_eq_fold_single (FloatOps.maximumf (F := Ideal) (φ := .f32)) y init
    reducesTo_S16x64x16384_S16x64_d2 hR h_S_ (ix2 b p)]
  show (Finset.univ : Finset (Fin 16384)).fold max (init (Shape.Idx.first h_S_)) (y ∘ hR.lift (ix2 b p)) = _
  refine congrArg (fun g => Finset.fold _ (init (Shape.Idx.first h_S_)) g (Finset.univ : Finset (Fin 16384)))
    (funext fun k => congrArg y (funext fun a => Fin.ext ?_))
  match a with
  | ⟨0, _⟩ => rfl
  | ⟨1, _⟩ => rfl
  | ⟨2, _⟩ => rfl

/-- The same for a minimum-reduce. -/
private theorem reduce_min_at (y : S16x64x16384.Idx → EReal) (init : S_.Idx → EReal) (b : Fin 16) (p : Fin 64) :
    Host.reduce (FloatOps.minimumf (F := Ideal) (φ := .f32)) y init reducesTo_S16x64x16384_S16x64_d2 h_S_ (ix2 b p)
      = (Finset.univ : Finset (Fin 16384)).fold min (init (Shape.Idx.first h_S_)) (fun k => y (ix3 b p k)) := by
  have hR : S16x64x16384.Reduces [2] S16x64 := by decide
  rw [Host.reduce_eq_fold_single (FloatOps.minimumf (F := Ideal) (φ := .f32)) y init
    reducesTo_S16x64x16384_S16x64_d2 hR h_S_ (ix2 b p)]
  show (Finset.univ : Finset (Fin 16384)).fold min (init (Shape.Idx.first h_S_)) (y ∘ hR.lift (ix2 b p)) = _
  refine congrArg (fun g => Finset.fold _ (init (Shape.Idx.first h_S_)) g (Finset.univ : Finset (Fin 16384)))
    (funext fun k => congrArg y (funext fun a => Fin.ext ?_))
  match a with
  | ⟨0, _⟩ => rfl
  | ⟨1, _⟩ => rfl
  | ⟨2, _⟩ => rfl

/-- The likelihood's maximum over tile `(h, w)` of image `b`. -/
private theorem v36_at (x1 : (⟨S16x1x1024x1024, .f32⟩ : BufTy).Contents (Elt Ideal)) (b : Fin 16) (h w : Fin 8) :
    val_main_v36 (F := Ideal) x1 (ix2 b (Cert.Spec.tileOf h w))
      = Cert.Spec.tileMax fun r c =>
          Cert.Spec.lhE (x1 (ix4 b (0 : Fin 1) (Cert.Spec.rowOf h r) (Cert.Spec.colOf w c))) := by
  refine (reduce_max_at (val_main_v25 (F := Ideal) x1) (val_main_cst_10 (F := Ideal)) b (Cert.Spec.tileOf h w)).trans ?_
  rw [val_main_cst_10_apply]
  show (Finset.univ : Finset (Fin 16384)).fold max (Ideal.ofBits .f32 0xFF800000#32) _ = _
  rw [Cert.Spec.negInf_eq, Cert.Alg.fold_max_cells]
  exact congrArg Cert.Spec.tileMax (funext fun r => funext fun c => v25_at x1 b h w r c)

/-- The likelihood's minimum over the tile. -/
private theorem v37_at (x1 : (⟨S16x1x1024x1024, .f32⟩ : BufTy).Contents (Elt Ideal)) (b : Fin 16) (h w : Fin 8) :
    val_main_v37 (F := Ideal) x1 (ix2 b (Cert.Spec.tileOf h w))
      = Cert.Spec.tileMin fun r c =>
          Cert.Spec.lhE (x1 (ix4 b (0 : Fin 1) (Cert.Spec.rowOf h r) (Cert.Spec.colOf w c))) := by
  refine (reduce_min_at (val_main_v25 (F := Ideal) x1) (val_main_cst_11 (F := Ideal)) b (Cert.Spec.tileOf h w)).trans ?_
  rw [val_main_cst_11_apply]
  show (Finset.univ : Finset (Fin 16384)).fold min (Ideal.ofBits .f32 0x7F800000#32) _ = _
  rw [Cert.Spec.posInf_eq, Cert.Alg.fold_min_cells]
  exact congrArg Cert.Spec.tileMin (funext fun r => funext fun c => v25_at x1 b h w r c)

/-- The flipped labels' maximum over the tile. -/
private theorem v29_at (x0 : (⟨S16x1x1024x1024, .f32⟩ : BufTy).Contents (Elt Ideal)) (b : Fin 16) (h w : Fin 8) :
    val_main_v29 (F := Ideal) x0 (ix2 b (Cert.Spec.tileOf h w))
      = Cert.Spec.tileMax fun r c =>
          Cert.Spec.gtE (x0 (ix4 b (0 : Fin 1) (Cert.Spec.rowOf h r) (Cert.Spec.colOf w c))) := by
  refine (reduce_max_at (val_main_v28 (F := Ideal) x0) (val_main_cst_6 (F := Ideal)) b (Cert.Spec.tileOf h w)).trans ?_
  rw [val_main_cst_6_apply]
  show (Finset.univ : Finset (Fin 16384)).fold max (Ideal.ofBits .f32 0xFF800000#32) _ = _
  rw [Cert.Spec.negInf_eq, Cert.Alg.fold_max_cells]
  exact congrArg Cert.Spec.tileMax (funext fun r => funext fun c => v28_at x0 b h w r c)

/-- The flipped labels' minimum over the tile. -/
private theorem v30_at (x0 : (⟨S16x1x1024x1024, .f32⟩ : BufTy).Contents (Elt Ideal)) (b : Fin 16) (h w : Fin 8) :
    val_main_v30 (F := Ideal) x0 (ix2 b (Cert.Spec.tileOf h w))
      = Cert.Spec.tileMin fun r c =>
          Cert.Spec.gtE (x0 (ix4 b (0 : Fin 1) (Cert.Spec.rowOf h r) (Cert.Spec.colOf w c))) := by
  refine (reduce_min_at (val_main_v28 (F := Ideal) x0) (val_main_cst_7 (F := Ideal)) b (Cert.Spec.tileOf h w)).trans ?_
  rw [val_main_cst_7_apply]
  show (Finset.univ : Finset (Fin 16384)).fold min (Ideal.ofBits .f32 0x7F800000#32) _ = _
  rw [Cert.Spec.posInf_eq, Cert.Alg.fold_min_cells]
  exact congrArg Cert.Spec.tileMin (funext fun r => funext fun c => v28_at x0 b h w r c)

/-- The selected penalty at tile `(h, w)` of image `b` is the spec's penalty of that tile. -/
private theorem v43_at (x0 x1 : (⟨S16x1x1024x1024, .f32⟩ : BufTy).Contents (Elt Ideal)) (b : Fin 16) (h w : Fin 8) :
    val_main_v43 (F := Ideal) x0 x1 (ix2 b (Cert.Spec.tileOf h w)) = Cert.Spec.patchLoss x0 x1 b h w := by
  rw [val_main_v43_apply, val_main_v35_apply, val_main_v32_apply, val_main_v34_apply, val_main_v31_apply,
    val_main_v33_apply, val_main_cst_8_apply, val_main_cst_9_apply, val_main_v42_apply, val_main_v40_apply,
    val_main_v41_apply, val_main_v39_apply, val_main_v38_apply, val_main_cst_12_apply, val_main_call0_v1_apply,
    val_main_call0_v0_apply, val_main_cst_13_apply, v29_at, v30_at, v36_at, v37_at]
  show Scalar.select _ _ (Ideal.ofBits .f32 0x00000000#32) = _
  rw [Ideal.ofBits_zero_f32]
  rfl

/-- The weighted mean penalty stage is the spec's second term. -/
theorem topo_eq (x0 x1 : (⟨S16x1x1024x1024, .f32⟩ : BufTy).Contents (Elt Ideal)) (i : S_.Idx) :
    val_main_v47 (F := Ideal) x0 x1 i
      = Cert.Spec.oneE * Ideal.div (∑ b : Fin 16, ∑ h : Fin 8, Cert.Spec.blockTopo x0 x1 b h) Cert.Spec.nImgE := by
  rw [val_main_v47_apply, val_main_cst_17_apply, val_main_v46_apply, val_main_cst_16_apply, val_main_v45_apply,
    val_main_cst_15_apply]
  show Cert.Spec.oneE * Ideal.div (Ideal.ofBits .f32 0x00000000#32
    + ∑ j : (⟨1, ![16]⟩ : Shape).Idx, val_main_v44 (F := Ideal) x0 x1 j) Cert.Spec.nImgE = _
  rw [Ideal.ofBits_zero_f32, zero_add, Cert.Alg.sum_vec16]
  refine congrArg (fun s => Cert.Spec.oneE * Ideal.div s Cert.Spec.nImgE) (Finset.sum_congr rfl fun b _ => ?_)
  rw [val_main_v44_apply, val_main_cst_14_apply]
  show Ideal.ofBits .f32 0x00000000#32
    + ∑ k : Fin 64, val_main_v43 (F := Ideal) x0 x1 (idx_main_v44 (ix1 b) k) = _
  rw [Ideal.ofBits_zero_f32, zero_add, Cert.Alg.sum_tiles]
  refine Finset.sum_congr rfl fun h _ => ?_
  unfold Cert.Spec.blockTopo
  refine Finset.sum_congr rfl fun w _ => ?_
  rw [← v43_at]
  refine congrArg (val_main_v43 (F := Ideal) x0 x1) (funext fun a => Fin.ext ?_)
  match a with
  | ⟨0, _⟩ => rfl
  | ⟨1, _⟩ => rfl

end Cert.ReferenceIdeal.RefSide

end
-- ==== Proof.RefSide.lean ====
/-
  The reference program's result, read at the ideal instance, is the spec's function of the two input images.

  The reference computes the cross-entropy of every pixel and sums over all of them at once; it builds the flipped
  likelihood and label maps, regroups each image into 64 flattened 128 x 128 tiles (a reshape, a transpose of the two
  middle axes, a reshape), takes each tile's maximum and minimum over its 16384 cells, forms the penalty where the
  labels straddle one half, and sums over tiles and then over images. Read index by index this is the spec's nested
  sums and its rows-then-columns maxima and minima, up to the re-indexing lemmas of the algebra module; jax's expansion
  of the logistic function (negate, exponential, add one, divide one by it) is the ideal logistic function itself.
-/
import proofs.«173670_j26302379721190_1_alg».proof.Proof.Gen.ReferenceIdeal.Read
import proofs.«173670_j26302379721190_1_alg».proof.Proof.Spec
import proofs.«173670_j26302379721190_1_alg».proof.Proof.Algebra
import proofs.«173670_j26302379721190_1_alg».proof.Proof.RefBce
import proofs.«173670_j26302379721190_1_alg».proof.Proof.RefTopo
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefSide

open Cert.ReferenceIdeal Cert.ReferenceIdeal.Gen Cert.ReferenceIdeal.Read
open Idealize.ShloMosaic Idealize.ShloMosaic.ValueIdx

/-- The reference's result stage at the ideal instance is the spec's total, at its one index. -/
theorem result_eq (x0 x1 : (⟨S16x1x1024x1024, .f32⟩ : BufTy).Contents (Elt Ideal)) (i : S_.Idx) :
    val_main_v48 (F := Ideal) x0 x1 i = Cert.Spec.total x0 x1 := by
  rw [val_main_v48_apply, bce_eq, topo_eq]
  rfl

end Cert.ReferenceIdeal.RefSide

end
-- ==== Proof.lean ====
/-
  The kernel and its reference compute one function of the two input images, and the kernel's idealization is the
  kernel's own text read at the ideal instance.

  Both programs return the mean, over all pixels, of the stable binary cross-entropy of logits against labels, plus one
  times the mean over the 16 images of a per-image penalty: each image is cut into 64 tiles of 128 x 128, and a tile whose
  flipped labels lie on both sides of one half is charged (max - 1)^2 + min^2 of the flipped likelihood sigmoid(1 - p).

  The reference sums the cross-entropy over the whole stack at once and takes each tile's extremes over its 16384 cells;
  the kernel walks a 16 x 8 grid (image, row band of 128 rows), sums each row band's cross-entropy rows first, takes each
  tile's extremes rows first, adds the eight tiles of the band, and accumulates both numbers over the eight bands of an
  image into one entry per image, which the host lines after it add up and divide. Over the extended reals addition, max
  and min are commutative and associative, so the regrouping changes nothing; no distributivity or cancellation is used
  and the inputs' finiteness is never needed. The kernel's logistic operation and the reference's expansion of it into
  negate, exponential, add one and divide are the same function of an extended real, and zero minus x is minus x.

  The three frames are the generated ones (the reference's is its generated run with the result dropped); the ideal pass
  rewrote nothing, so the idealization claim is trivial; the value claim pairs the kernel's run read at the ideal
  instance with the reference's generated run read stage by stage, both ending at the specification's total.
-/
import proofs.«173670_j26302379721190_1_alg».proof.Defs
import proofs.«173670_j26302379721190_1_alg».proof.Proof.Gen.Kernel
import proofs.«173670_j26302379721190_1_alg».proof.Proof.Gen.Kernel.Frame
import proofs.«173670_j26302379721190_1_alg».proof.Proof.Gen.KernelIdeal
import proofs.«173670_j26302379721190_1_alg».proof.Proof.Gen.KernelIdeal.Frame
import proofs.«173670_j26302379721190_1_alg».proof.Proof.Gen.ReferenceIdeal
import proofs.«173670_j26302379721190_1_alg».proof.Proof.Gen.ReferenceIdeal.Run
import proofs.«173670_j26302379721190_1_alg».proof.Proof.Gen.ReferenceIdeal.Read
import proofs.«173670_j26302379721190_1_alg».proof.Proof.Gen.Pre_finite_inputs
import proofs.«173670_j26302379721190_1_alg».proof.Proof.KernelRun
import proofs.«173670_j26302379721190_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the specification's total of the (agreeing) argument arrays. -/
theorem algebraic : Cert.algebraic_KernelIdeal_ReferenceIdeal := by
  intro m ρ m' ρ' _ hagree
  refine ⟨fun c => fun _ => Cert.Spec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KR.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2]
  funext i
  exact Cert.ReferenceIdeal.RefSide.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
